-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v106) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x512x512 : Shape := ⟨3, ![64, 512, 512]⟩
abbrev S_ : Shape := ⟨0, ![]⟩

class Facts : Prop where
  bcast_S_S64x512x512 : S_.BroadcastsInDim S64x512x512 (![] : Fin 0 → Fin S64x512x512.rank)
  reducesTo_S64x512x512_S_d0_1_2 : S64x512x512.ReducesTo [0, 1, 2] S_
  h_S_ : 0 < S_.numel

variable [Facts]

def fn {F : FTy → Type} [FloatOps F] (main_arg0 : FVec F S64x512x512 .f32) (main_arg1 : FVec F S64x512x512 .f32) : IVec S_ 1 :=
  let main_v0 : FVec F S64x512x512 .f32 := Host.absf main_arg0
  let main_cst : FVec F S_ .f32 := constant S_ .f32 0x7F800000#32
  let main_v1 : FVec F S64x512x512 .f32 := broadcastInDim S64x512x512 ![] bcast_S_S64x512x512 main_cst
  let main_v2 : IVec S64x512x512 1 := cmpf .olt main_v0 main_v1
  let main_c : IVec S_ 1 := constantI S_ 1 1#1
  let main_v3 : IVec S_ 1 := (fun x v => Host.reduce IntOp.andi x v reducesTo_S64x512x512_S_d0_1_2 h_S_) main_v2 main_c
  let main_v4 : FVec F S64x512x512 .f32 := Host.absf main_arg1
  let main_cst_0 : FVec F S_ .f32 := constant S_ .f32 0x7F800000#32
  let main_v5 : FVec F S64x512x512 .f32 := broadcastInDim S64x512x512 ![] bcast_S_S64x512x512 main_cst_0
  let main_v6 : IVec S64x512x512 1 := cmpf .olt main_v4 main_v5
  let main_c_1 : IVec S_ 1 := constantI S_ 1 1#1
  let main_v7 : IVec S_ 1 := (fun x v => Host.reduce IntOp.andi x v reducesTo_S64x512x512_S_d0_1_2 h_S_) main_v6 main_c_1
  let main_v8 : IVec S_ 1 := andi main_v3 main_v7
  main_v8
-- ==== Kernel.lean ====
abbrev S64x512x512 : Shape := ⟨3, ![64, 512, 512]⟩
abbrev S64x128 : Shape := ⟨2, ![64, 128]⟩
abbrev S8x128x512 : Shape := ⟨3, ![8, 128, 512]⟩
abbrev S8x128 : Shape := ⟨2, ![8, 128]⟩
abbrev S8 : Shape := ⟨1, ![8]⟩
abbrev S8x1 : Shape := ⟨2, ![8, 1]⟩
abbrev S8x7 : Shape := ⟨2, ![8, 7]⟩
abbrev S8x121 : Shape := ⟨2, ![8, 121]⟩
abbrev S64x1 : Shape := ⟨2, ![64, 1]⟩
abbrev S64 : Shape := ⟨1, ![64]⟩
abbrev S64x3 : Shape := ⟨2, ![64, 3]⟩
abbrev S_ : Shape := ⟨0, ![]⟩

abbrev nBuf : Space → Nat
  | .hbm => 66
  | .vmem => 6
  | .smem => 0
  | _ => 0

abbrev bufTy : (tb : Table) → Fin (tcTables nBuf tb) → BufTy
  | .hbm, ⟨0, _⟩ => ⟨S64x512x512, .f32⟩
  | .hbm, ⟨1, _⟩ => ⟨S64x512x512, .f32⟩
  | .hbm, ⟨2, _⟩ => ⟨S64x128, .f32⟩
  | .hbm, ⟨3, _⟩ => ⟨S64x1, .f32⟩
  | .hbm, ⟨4, _⟩ => ⟨S64, .f32⟩
  | .hbm, ⟨5, _⟩ => ⟨S64x3, .f32⟩
  | .hbm, ⟨6, _⟩ => ⟨S64x3, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S64x3, .f32⟩
  | .hbm, ⟨13, _⟩ => ⟨S64x3, .f32⟩
  | .hbm, ⟨14, _⟩ => ⟨S_, .f32⟩
  | .hbm, ⟨15, _⟩ => ⟨S64, .f32⟩
  | .hbm, ⟨16, _⟩ => ⟨S_, .f32⟩
  | .hbm, ⟨17, _⟩ => ⟨S64, .f32⟩
  | .hbm, ⟨18, _⟩ => ⟨S64, .f32⟩
  | .hbm, ⟨19, _⟩ => ⟨S64x1, .f32⟩
  | .hbm, ⟨20, _⟩ => ⟨S64x3, .f32⟩
  | .hbm, ⟨21, _⟩ => ⟨S64x3, .f32⟩
  | .hbm, ⟨22, _⟩ => ⟨S64x3, .f32⟩
  | .hbm, ⟨23, _⟩ => ⟨S_, .f32⟩
  | .hbm, ⟨24, _⟩ => ⟨S64, .f32⟩
  | .hbm, ⟨25, _⟩ => ⟨S64x1, .f32⟩
  | .hbm, ⟨26, _⟩ => ⟨S64x3, .f32⟩
  | .hbm, ⟨27, _⟩ => ⟨S64x3, .f32⟩
  | .hbm, ⟨28, _⟩ => ⟨S_, .f32⟩
  | .hbm, ⟨29, _⟩ => ⟨S64x3, .f32⟩
  | .hbm, ⟨30, _⟩ => ⟨S64x3, .f32⟩
  | .hbm, ⟨31, _⟩ => ⟨S_, .f32⟩
  | .hbm, ⟨32, _⟩ => ⟨S64, .f32⟩
  | .hbm, ⟨33, _⟩ => ⟨S_, .f32⟩
  | .hbm, ⟨34, _⟩ => ⟨S64, .f32⟩
  | .hbm, ⟨35, _⟩ => ⟨S64, .f32⟩
  | .hbm, ⟨36, _⟩ => ⟨S64x1, .f32⟩
  | .hbm, ⟨37, _⟩ => ⟨S64x3, .f32⟩
  | .hbm, ⟨38, _⟩ => ⟨S64x3, .f32⟩
  | .hbm, ⟨39, _⟩ => ⟨S64x3, .f32⟩
  | .hbm, ⟨40, _⟩ => ⟨S_, .f32⟩
  | .hbm, ⟨41, _⟩ => ⟨S64, .f32⟩
  | .hbm, ⟨42, _⟩ => ⟨S64x1, .f32⟩
  | .hbm, ⟨43, _⟩ => ⟨S64x3, .f32⟩
  | .hbm, ⟨44, _⟩ => ⟨S64x3, .f32⟩
  | .hbm, ⟨45, _⟩ => ⟨S_, .f32⟩
  | .hbm, ⟨46, _⟩ => ⟨S64x3, .f32⟩
  | .hbm, ⟨47, _⟩ => ⟨S64x3, .f32⟩
  | .hbm, ⟨48, _⟩ => ⟨S64x3, .f32⟩
  | .hbm, ⟨49, _⟩ => ⟨S_, .f32⟩
  | .hbm, ⟨50, _⟩ => ⟨S64x3, .f32⟩
  | .hbm, ⟨51, _⟩ => ⟨S64x3, .f32⟩
  | .hbm, ⟨52, _⟩ => ⟨S64x3, .f32⟩
  | .hbm, ⟨53, _⟩ => ⟨S64x3, .f32⟩
  | .hbm, ⟨54, _⟩ => ⟨S64x3, .f32⟩
  | .hbm, ⟨55, _⟩ => ⟨S_, .f32⟩
  | .hbm, ⟨56, _⟩ => ⟨S64, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .local _ .vmem, ⟨0, _⟩ => ⟨S8x128x512, .f32⟩
  | .local _ .vmem, ⟨1, _⟩ => ⟨S8x128x512, .f32⟩
  | .local _ .vmem, ⟨2, _⟩ => ⟨S8x128x512, .f32⟩
  | .local _ .vmem, ⟨3, _⟩ => ⟨S8x128x512, .f32⟩
  | .local _ .vmem, ⟨4, _⟩ => ⟨S8x128, .f32⟩
  | .local _ .vmem, ⟨5, _⟩ => ⟨S8x128, .f32⟩
  | _, _ => ⟨S64x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_cst_3 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_4 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_5 : Ref sig .tc := ⟨.hbm, 28, rfl⟩
abbrev main_v20 : Ref sig .tc := ⟨.hbm, 29, rfl⟩
abbrev main_v21 : Ref sig .tc := ⟨.hbm, 30, rfl⟩
abbrev main_cst_6 : Ref sig .tc := ⟨.hbm, 31, rfl⟩
abbrev main_v22 : Ref sig .tc := ⟨.hbm, 32, rfl⟩
abbrev main_cst_7 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_8 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_9 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_10 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_11 : Ref sig .tc := ⟨.hbm, 55, rfl⟩
abbrev main_v41 : Ref sig .tc := ⟨.hbm, 56, rfl⟩
abbrev main_cst_12 : Ref sig .tc := ⟨.hbm, 57, rfl⟩
abbrev main_v42 : Ref sig .tc := ⟨.hbm, 58, rfl⟩
abbrev main_cst_13 : Ref sig .tc := ⟨.hbm, 59, rfl⟩
abbrev main_v43 : Ref sig .tc := ⟨.hbm, 60, rfl⟩
abbrev main_cst_14 : Ref sig .tc := ⟨.hbm, 61, rfl⟩
abbrev main_v44 : Ref sig .tc := ⟨.hbm, 62, rfl⟩
abbrev main_cst_15 : Ref sig .tc := ⟨.hbm, 63, rfl⟩
abbrev main_v45 : Ref sig .tc := ⟨.hbm, 64, rfl⟩
abbrev main_v46 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S8x128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S8x128_S8x128_0_0 : ∀ a, (![0, 0] : Fin 2 → Nat) a + S8x128.size a ≤ S8x128.size a
  h_S8x128 : 0 < S8x128.numel
  inb_S8x128x512_S8x128x512_0_0_0 : ∀ a, (![0, 0, 0] : Fin 3 → Nat) a + S8x128x512.size a ≤ S8x128x512.size a
  h_S8x128x512 : 0 < S8x128x512.numel
  natLt_1_32 : 1 < 32
  reduces_S8x128x512_S8x128 : S8x128x512.Reduces [2] S8x128
  reduces_S8x128_S8 : S8x128.Reduces [1] S8
  shapeCasts_S8_S8x1 : S8.ShapeCasts S8x1
  concatenates_S8x1_S8x1_S8x1_S8x1_S8x1_S8x1_S8x1_S8x7_d1 : Shape.Concatenates [S8x1, S8x1, S8x1, S8x1, S8x1, S8x1, S8x1] S8x7 1
  concatenates_S8x7_S8x121_S8x128_d1 : Shape.Concatenates [S8x7, S8x121] S8x128 1
  shapeCasts_S8x128_S8x128 : S8x128.ShapeCasts S8x128
  slices_S64x128_S64x1_0_0 : S64x128.Slices ![0, 0] S64x1
  shapeCasts_S64x1_S64 : S64x1.ShapeCasts S64
  slices_S64x128_S64x3_0_1 : S64x128.Slices ![0, 1] S64x3
  slices_S64x128_S64x3_0_4 : S64x128.Slices ![0, 4] S64x3
  reducesTo_S64_S_d0 : S64.ReducesTo [0] S_
  h_S_ : 0 < S_.numel
  bcast_S_S64x3 : S_.BroadcastsInDim S64x3 (![] : Fin 0 → Fin S64x3.rank)
  reducesTo_S64x3_S64_d1 : S64x3.ReducesTo [1] S64
  bcast_S_S64 : S_.BroadcastsInDim S64 (![] : Fin 0 → Fin S64.rank)
  bcast_S64_S64x1_0 : S64.BroadcastsInDim S64x1 (![0] : Fin 1 → Fin S64x1.rank)
  bcast_S64x1_S64x3_0_1 : S64x1.BroadcastsInDim S64x3 (![0, 1] : Fin 2 → Fin S64x3.rank)
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x128x512.size a ≤ S64x512x512.size a
  hwx0_0 : ∀ i : grid0.Coords, EltTy.bits .f32 = 32 ∨ (Rect.block (s := S64x512x512) S8x128x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x128x512.size a ≤ S64x512x512.size a
  hwx0_1 : ∀ i : grid0.Coords, EltTy.bits .f32 = 32 ∨ (Rect.block (s := S64x512x512) S8x128x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x128.size a ≤ S64x128.size a
  hwx0_2 : ∀ i : grid0.Coords, EltTy.bits .f32 = 32 ∨ (Rect.block (s := S64x128) S8x128.size (cc0_transform_2 i) (hinb0_2 i)).WholeWords (EltTy.packing .f32)

variable [Facts₀]

abbrev win0_0 : Pipeline.Window sig grid0 :=
  Pipeline.Window.ofSpec (Memref.whole main_arg0) S8x128x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x128x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S8x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S64x512x512 : Shape := ⟨3, ![64, 512, 512]⟩
abbrev S_ : Shape := ⟨0, ![]⟩
abbrev S64x262144 : Shape := ⟨2, ![64, 262144]⟩
abbrev S64 : Shape := ⟨1, ![64]⟩
abbrev S64x1 : Shape := ⟨2, ![64, 1]⟩
abbrev S64x3 : Shape := ⟨2, ![64, 3]⟩

abbrev nBuf : Space → Nat
  | .hbm => 148
  | .vmem => 0
  | .smem => 0
  | _ => 0

abbrev hbmTy0_0 (i : Nat) : BufTy := match i % 128 with
  | 0 => ⟨S64x512x512, .f32⟩
  | 1 => ⟨S64x512x512, .f32⟩
  | 2 => ⟨S_, .f32⟩
  | 3 => ⟨S64x512x512, .f32⟩
  | 4 => ⟨S64x512x512, .i1⟩
  | 5 => ⟨S64x512x512, .f32⟩
  | 6 => ⟨S64x512x512, .f32⟩
  | 7 => ⟨S64x512x512, .f32⟩
  | 8 => ⟨S_, .f32⟩
  | 9 => ⟨S64x512x512, .f32⟩
  | 10 => ⟨S64x512x512, .f32⟩
  | 11 => ⟨S64x512x512, .f32⟩
  | 12 => ⟨S_, .f32⟩
  | 13 => ⟨S64x512x512, .f32⟩
  | 14 => ⟨S64x512x512, .f32⟩
  | 15 => ⟨S64x512x512, .f32⟩
  | 16 => ⟨S64x512x512, .f32⟩
  | 17 => ⟨S64x512x512, .f32⟩
  | 18 => ⟨S64x512x512, .f32⟩
  | 19 => ⟨S_, .f32⟩
  | 20 => ⟨S_, .f32⟩
  | 21 => ⟨S_, .f32⟩
  | 22 => ⟨S_, .f32⟩
  | 23 => ⟨S64x262144, .f32⟩
  | 24 => ⟨S_, .f32⟩
  | 25 => ⟨S64x262144, .f32⟩
  | 26 => ⟨S64x262144, .i1⟩
  | 27 => ⟨S_, .f32⟩
  | 28 => ⟨S64x262144, .f32⟩
  | 29 => ⟨S64x262144, .i1⟩
  | 30 => ⟨S64x262144, .i1⟩
  | 31 => ⟨S64x262144, .f32⟩
  | 32 => ⟨S_, .f32⟩
  | 33 => ⟨S64, .f32⟩
  | 34 => ⟨S_, .f32⟩
  | 35 => ⟨S64x262144, .f32⟩
  | 36 => ⟨S64x262144, .i1⟩
  | 37 => ⟨S_, .f32⟩
  | 38 => ⟨S64x262144, .f32⟩
  | 39 => ⟨S64x262144, .i1⟩
  | 40 => ⟨S64x262144, .i1⟩
  | 41 => ⟨S64x262144, .f32⟩
  | 42 => ⟨S_, .f32⟩
  | 43 => ⟨S64, .f32⟩
  | 44 => ⟨S_, .f32⟩
  | 45 => ⟨S64x262144, .f32⟩
  | 46 => ⟨S64x262144, .i1⟩
  | 47 => ⟨S_, .f32⟩
  | 48 => ⟨S64x262144, .f32⟩
  | 49 => ⟨S64x262144, .i1⟩
  | 50 => ⟨S64x262144, .i1⟩
  | 51 => ⟨S64x262144, .f32⟩
  | 52 => ⟨S_, .f32⟩
  | 53 => ⟨S64, .f32⟩
  | 54 => ⟨S64x1, .f32⟩
  | 55 => ⟨S64x1, .f32⟩
  | 56 => ⟨S64x1, .f32⟩
  | 57 => ⟨S64x3, .f32⟩
  | 58 => ⟨S_, .f32⟩
  | 59 => ⟨S64x3, .f32⟩
  | 60 => ⟨S64x3, .f32⟩
  | 61 => ⟨S_, .f32⟩
  | 62 => ⟨S64, .f32⟩
  | 63 => ⟨S_, .f32⟩
  | 64 => ⟨S64, .f32⟩
  | 65 => ⟨S64, .f32⟩
  | 66 => ⟨S64x1, .f32⟩
  | 67 => ⟨S64x3, .f32⟩
  | 68 => ⟨S64x3, .f32⟩
  | 69 => ⟨S64x3, .f32⟩
  | 70 => ⟨S_, .f32⟩
  | 71 => ⟨S64, .f32⟩
  | 72 => ⟨S64x1, .f32⟩
  | 73 => ⟨S64x3, .f32⟩
  | 74 => ⟨S64x3, .f32⟩
  | 75 => ⟨S64x262144, .f32⟩
  | 76 => ⟨S_, .f32⟩
  | 77 => ⟨S64x262144, .f32⟩
  | 78 => ⟨S64x262144, .i1⟩
  | 79 => ⟨S_, .f32⟩
  | 80 => ⟨S64x262144, .f32⟩
  | 81 => ⟨S64x262144, .i1⟩
  | 82 => ⟨S64x262144, .i1⟩
  | 83 => ⟨S64x262144, .f32⟩
  | 84 => ⟨S_, .f32⟩
  | 85 => ⟨S64, .f32⟩
  | 86 => ⟨S_, .f32⟩
  | 87 => ⟨S64x262144, .f32⟩
  | 88 => ⟨S64x262144, .i1⟩
  | 89 => ⟨S_, .f32⟩
  | 90 => ⟨S64x262144, .f32⟩
  | 91 => ⟨S64x262144, .i1⟩
  | 92 => ⟨S64x262144, .i1⟩
  | 93 => ⟨S64x262144, .f32⟩
  | 94 => ⟨S_, .f32⟩
  | 95 => ⟨S64, .f32⟩
  | 96 => ⟨S_, .f32⟩
  | 97 => ⟨S64x262144, .f32⟩
  | 98 => ⟨S64x262144, .i1⟩
  | 99 => ⟨S_, .f32⟩
  | 100 => ⟨S64x262144, .f32⟩
  | 101 => ⟨S64x262144, .i1⟩
  | 102 => ⟨S64x262144, .i1⟩
  | 103 => ⟨S64x262144, .f32⟩
  | 104 => ⟨S_, .f32⟩
  | 105 => ⟨S64, .f32⟩
  | 106 => ⟨S64x1, .f32⟩
  | 107 => ⟨S64x1, .f32⟩
  | 108 => ⟨S64x1, .f32⟩
  | 109 => ⟨S64x3, .f32⟩
  | 110 => ⟨S_, .f32⟩
  | 111 => ⟨S64x3, .f32⟩
  | 112 => ⟨S64x3, .f32⟩
  | 113 => ⟨S_, .f32⟩
  | 114 => ⟨S64, .f32⟩
  | 115 => ⟨S_, .f32⟩
  | 116 => ⟨S64, .f32⟩
  | 117 => ⟨S64, .f32⟩
  | 118 => ⟨S64x1, .f32⟩
  | 119 => ⟨S64x3, .f32⟩
  | 120 => ⟨S64x3, .f32⟩
  | 121 => ⟨S64x3, .f32⟩
  | 122 => ⟨S_, .f32⟩
  | 123 => ⟨S64, .f32⟩
  | 124 => ⟨S64x1, .f32⟩
  | 125 => ⟨S64x3, .f32⟩
  | 126 => ⟨S64x3, .f32⟩
  | 127 => ⟨S_, .f32⟩
  | _ => ⟨S64x512x512, .f32⟩

abbrev hbmTy0_1 (i : Nat) : BufTy := match i % 128 with
  | 0 => ⟨S64x3, .f32⟩
  | 1 => ⟨S64x3, .f32⟩
  | 2 => ⟨S64x3, .f32⟩
  | 3 => ⟨S_, .f32⟩
  | 4 => ⟨S64x3, .f32⟩
  | 5 => ⟨S64x3, .f32⟩
  | 6 => ⟨S64x3, .f32⟩
  | 7 => ⟨S64x3, .f32⟩
  | 8 => ⟨S64x3, .f32⟩
  | 9 => ⟨S_, .f32⟩
  | 10 => ⟨S64, .f32⟩
  | 11 => ⟨S_, .f32⟩
  | 12 => ⟨S_, .f32⟩
  | 13 => ⟨S_, .f32⟩
  | 14 => ⟨S_, .f32⟩
  | 15 => ⟨S_, .f32⟩
  | 16 => ⟨S_, .f32⟩
  | 17 => ⟨S_, .f32⟩
  | 18 => ⟨S_, .f32⟩
  | 19 => ⟨S_, .f32⟩
  | _ => ⟨S64x512x512, .f32⟩

abbrev hbmTy (i : Nat) : BufTy := match i / 128 with
  | 0 => hbmTy0_0 i
  | 1 => hbmTy0_1 i
  | _ => ⟨S64x512x512, .f32⟩

abbrev bufTy : (tb : Table) → Fin (tcTables nBuf tb) → BufTy
  | .hbm, ⟨i, _⟩ => hbmTy i
  | _, _ => ⟨S64x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_call0_cst : Ref sig .tc := ⟨.hbm, 12, rfl⟩
abbrev main_call0_v0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_5 : Ref sig .tc := ⟨.hbm, 32, rfl⟩
abbrev main_v22 : Ref sig .tc := ⟨.hbm, 33, rfl⟩
abbrev main_cst_6 : Ref sig .tc := ⟨.hbm, 34, rfl⟩
abbrev main_v23 : Ref sig .tc := ⟨.hbm, 35, rfl⟩
abbrev main_v24 : Ref sig .tc := ⟨.hbm, 36, rfl⟩
abbrev main_cst_7 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_8 : Ref sig .tc := ⟨.hbm, 42, rfl⟩
abbrev main_v29 : Ref sig .tc := ⟨.hbm, 43, rfl⟩
abbrev main_cst_9 : Ref sig .tc := ⟨.hbm, 44, rfl⟩
abbrev main_v30 : Ref sig .tc := ⟨.hbm, 45, rfl⟩
abbrev main_v31 : Ref sig .tc := ⟨.hbm, 46, rfl⟩
abbrev main_cst_10 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_11 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_12 : Ref sig .tc := ⟨.hbm, 58, rfl⟩
abbrev main_v41 : Ref sig .tc := ⟨.hbm, 59, rfl⟩
abbrev main_v42 : Ref sig .tc := ⟨.hbm, 60, rfl⟩
abbrev main_cst_13 : Ref sig .tc := ⟨.hbm, 61, rfl⟩
abbrev main_v43 : Ref sig .tc := ⟨.hbm, 62, rfl⟩
abbrev main_cst_14 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_cst_15 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_16 : Ref sig .tc := ⟨.hbm, 76, rfl⟩
abbrev main_v55 : Ref sig .tc := ⟨.hbm, 77, rfl⟩
abbrev main_v56 : Ref sig .tc := ⟨.hbm, 78, rfl⟩
abbrev main_cst_17 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_cst_18 : Ref sig .tc := ⟨.hbm, 84, rfl⟩
abbrev main_v61 : Ref sig .tc := ⟨.hbm, 85, rfl⟩
abbrev main_cst_19 : Ref sig .tc := ⟨.hbm, 86, rfl⟩
abbrev main_v62 : Ref sig .tc := ⟨.hbm, 87, rfl⟩
abbrev main_v63 : Ref sig .tc := ⟨.hbm, 88, rfl⟩
abbrev main_cst_20 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_cst_21 : Ref sig .tc := ⟨.hbm, 94, rfl⟩
abbrev main_v68 : Ref sig .tc := ⟨.hbm, 95, rfl⟩
abbrev main_cst_22 : Ref sig .tc := ⟨.hbm, 96, rfl⟩
abbrev main_v69 : Ref sig .tc := ⟨.hbm, 97, rfl⟩
abbrev main_v70 : Ref sig .tc := ⟨.hbm, 98, rfl⟩
abbrev main_cst_23 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_cst_24 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_cst_25 : Ref sig .tc := ⟨.hbm, 110, rfl⟩
abbrev main_v80 : Ref sig .tc := ⟨.hbm, 111, rfl⟩
abbrev main_v81 : Ref sig .tc := ⟨.hbm, 112, rfl⟩
abbrev main_cst_26 : Ref sig .tc := ⟨.hbm, 113, rfl⟩
abbrev main_v82 : Ref sig .tc := ⟨.hbm, 114, rfl⟩
abbrev main_cst_27 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_cst_28 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_cst_29 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_cst_30 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_cst_31 : Ref sig .tc := ⟨.hbm, 137, rfl⟩
abbrev main_v101 : Ref sig .tc := ⟨.hbm, 138, rfl⟩
abbrev main_cst_32 : Ref sig .tc := ⟨.hbm, 139, rfl⟩
abbrev main_v102 : Ref sig .tc := ⟨.hbm, 140, rfl⟩
abbrev main_cst_33 : Ref sig .tc := ⟨.hbm, 141, rfl⟩
abbrev main_v103 : Ref sig .tc := ⟨.hbm, 142, rfl⟩
abbrev main_cst_34 : Ref sig .tc := ⟨.hbm, 143, rfl⟩
abbrev main_v104 : Ref sig .tc := ⟨.hbm, 144, rfl⟩
abbrev main_cst_35 : Ref sig .tc := ⟨.hbm, 145, rfl⟩
abbrev main_v105 : Ref sig .tc := ⟨.hbm, 146, rfl⟩
abbrev main_v106 : Ref sig .tc := ⟨.hbm, 147, rfl⟩

abbrev nD : Nat := 1
abbrev τ : Topo := Topo.v7x

variable {F : FTy → Type} [FloatOps F]

class Facts₀ : Prop where
  bcast_S_S64x512x512 : S_.BroadcastsInDim S64x512x512 (![] : Fin 0 → Fin S64x512x512.rank)
  reducesTo_S64x512x512_S_d0_1_2 : S64x512x512.ReducesTo [0, 1, 2] S_
  h_S_ : 0 < S_.numel
  shapeCasts_S64x512x512_S64x262144 : S64x512x512.ShapeCasts S64x262144
  bcast_S_S64x262144 : S_.BroadcastsInDim S64x262144 (![] : Fin 0 → Fin S64x262144.rank)
  reducesTo_S64x262144_S64_d1 : S64x262144.ReducesTo [1] S64
  bcast_S64_S64x1_0 : S64.BroadcastsInDim S64x1 (![0] : Fin 1 → Fin S64x1.rank)
  concatenates_S64x1_S64x1_S64x1_S64x3_d1 : Shape.Concatenates [S64x1, S64x1, S64x1] S64x3 1
  bcast_S_S64x3 : S_.BroadcastsInDim S64x3 (![] : Fin 0 → Fin S64x3.rank)
  reducesTo_S64x3_S64_d1 : S64x3.ReducesTo [1] S64
  bcast_S_S64 : S_.BroadcastsInDim S64 (![] : Fin 0 → Fin S64.rank)
  bcast_S64x1_S64x3_0_1 : S64x1.BroadcastsInDim S64x3 (![0, 1] : Fin 2 → Fin S64x3.rank)
  reducesTo_S64_S_d0 : S64.ReducesTo [0] S_

variable [Facts₀]

class Facts : Prop extends Facts₀ where

variable [Facts]
-- ==== Proof.Tail.lean ====
/-
  What both programs do AFTER the per-sample statistics are known, as one function.

  From the total masked squared error `L` (a scalar) and the two tables of bin counts `ct` (truth) and `cp`
  (prediction), each 64 samples × 3 bins:
    p  = softmax over the bins of (ct + ε),   q = softmax over the bins of (cp + ε),
    kl = Σ_bins p · (log (p + ε) − log (q + ε))   per sample,
    result = 1.2 · (L / 2²⁴) + 2 · (Σ_samples kl / 64).
  Both programs spell this with the same operations in the same order over the same words, so it is never opened: the
  certificate only shows that the three inputs `L`, `ct`, `cp` agree.

  `ofStats` is the kernel's way in: `L` is the sum of column 0 of the 64 × 128 statistics array, `ct` its columns 1–3
  and `cp` its columns 4–6.
-/
import proofs.«154915_j80479097193024_1_alg».proof.Proof.Gen.KernelIdeal

noncomputable section

namespace Cert.KernelIdeal.Stats

open Cert.KernelIdeal Cert.KernelIdeal.Gen Idealize.ShloMosaic

variable {F : FTy → Type} [FloatOps F]

/-- The softmax over the three bins of each sample, of the counts plus ε (the maximum subtracted first). -/
def softmax3 (ct : FVec F S64x3 .f32) : FVec F S64x3 .f32 :=
  Host.divf
    (Host.exp (subf (addf ct (broadcastInDim S64x3 ![] bcast_S_S64x3 (constant S_ .f32 0x322BCC77#32)))
      (broadcastInDim S64x3 ![0, 1] bcast_S64x1_S64x3_0_1 (broadcastInDim S64x1 ![0] bcast_S64_S64x1_0
        (maximumf (broadcastInDim S64 ![] bcast_S_S64 (constant S_ .f32 0xFF800000#32))
          (Host.reduce FloatOps.maximumf (addf ct (broadcastInDim S64x3 ![] bcast_S_S64x3 (constant S_ .f32 0x322BCC77#32)))
            (constant S_ .f32 0xFF800000#32) reducesTo_S64x3_S64_d1 h_S_))))))
    (broadcastInDim S64x3 ![0, 1] bcast_S64x1_S64x3_0_1 (broadcastInDim S64x1 ![0] bcast_S64_S64x1_0
      (Host.reduceAdd
        (Host.exp (subf (addf ct (broadcastInDim S64x3 ![] bcast_S_S64x3 (constant S_ .f32 0x322BCC77#32)))
          (broadcastInDim S64x3 ![0, 1] bcast_S64x1_S64x3_0_1 (broadcastInDim S64x1 ![0] bcast_S64_S64x1_0
            (maximumf (broadcastInDim S64 ![] bcast_S_S64 (constant S_ .f32 0xFF800000#32))
              (Host.reduce FloatOps.maximumf (addf ct (broadcastInDim S64x3 ![] bcast_S_S64x3 (constant S_ .f32 0x322BCC77#32)))
                (constant S_ .f32 0xFF800000#32) reducesTo_S64x3_S64_d1 h_S_))))))
        (constant S_ .f32 0x00000000#32) reducesTo_S64x3_S64_d1 h_S_)))

/-- The result from the total error and the two count tables. -/
def tail (L : FVec F S_ .f32) (ct cp : FVec F S64x3 .f32) : FVec F S_ .f32 :=
  addf
    (mulf (constant S_ .f32 0x3F99999A#32) (Host.divf L (constant S_ .f32 0x4B800000#32)))
    (mulf (constant S_ .f32 0x40000000#32)
      (Host.divf
        (Host.reduceAdd
          (Host.reduceAdd
            (mulf (softmax3 ct)
              (subf
                (Host.log (addf (softmax3 ct) (broadcastInDim S64x3 ![] bcast_S_S64x3 (constant S_ .f32 0x322BCC77#32))))
                (Host.log (addf (softmax3 cp) (broadcastInDim S64x3 ![] bcast_S_S64x3 (constant S_ .f32 0x322BCC77#32))))))
            (constant S_ .f32 0x00000000#32) reducesTo_S64x3_S64_d1 h_S_)
          (constant S_ .f32 0x00000000#32) reducesTo_S64_S_d0 h_S_)
        (constant S_ .f32 0x42800000#32)))

/-- The total error out of the statistics array: column 0, summed over the 64 samples. -/
def lossOf (S : FVec F S64x128 .f32) : FVec F S_ .f32 :=
  Host.reduceAdd (shapeCast S64 (extractStridedSlice S64x1 ![0, 0] S slices_S64x128_S64x1_0_0) shapeCasts_S64x1_S64)
    (constant S_ .f32 0x00000000#32) reducesTo_S64_S_d0 h_S_

/-- The truth's bin counts out of the statistics array: columns 1–3. -/
def truthCounts (S : FVec F S64x128 .f32) : FVec F S64x3 .f32 :=
  extractStridedSlice S64x3 ![0, 1] S slices_S64x128_S64x3_0_1

/-- The prediction's bin counts out of the statistics array: columns 4–6. -/
def predCounts (S : FVec F S64x128 .f32) : FVec F S64x3 .f32 :=
  extractStridedSlice S64x3 ![0, 4] S slices_S64x128_S64x3_0_4

/-- The kernel program's result as a function of its statistics array. -/
def ofStats (S : FVec F S64x128 .f32) : FVec F S_ .f32 :=
  tail (lossOf S) (truthCounts S) (predCounts S)

end Cert.KernelIdeal.Stats

end
-- ==== Proof.Pieces.lean ====
/-
  What one grid point leaves in the output block, as a value.

  The body computes from the point's two input tiles (8 samples × 128 rows × 512 columns of the prediction and of the
  truth) a block of 8 × 128 numbers, the ADDEND: for each of the 8 samples, in columns 0–6, the tile's summed masked
  squared error, the truth's three bin counts and the prediction's three bin counts, and zeros in columns 7–127. It then
  adds the addend to what the output block holds — the zero block it has just stored, at the first row tile of a sample
  group; what the previous point left, at the others.
-/
import proofs.«154915_j80479097193024_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Stats

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The block of statistics one point adds, from its two input tiles. -/
def addend (x0 x1 : Vec F S8x128x512 .f32) : FVec F S8x128 .f32 :=
  k0_pay6 x0 x1 (k0_pay3 x0 x1) (k0_pay4 x1) (k0_pay5 x1)

/-- The zero block stored at the first row tile of a sample group. -/
abbrev zeroBlock : Vec F S8x128 .f32 := broadcast S8x128 (Scalar.ofBits .f32 0x00000000#32)

/-- At a later row tile the body leaves what the block held plus the addend. -/
theorem out_later (c : Dev nD) (i : grid0.Coords) (arg2 : Memref sig .tc .vmem S8x128x512 .f32) (harg2 : arg2.IsWhole)
    (arg3 : Memref sig .tc .vmem S8x128x512 .f32) (harg3 : arg3.IsWhole) (arg4 : Memref sig .tc .vmem S8x128 .f32) (harg4 : arg4.IsWhole)
    (hc0 : ¬cond0_0 i) (x0 x1 : Vec F S8x128x512 .f32) (xo2 : Vec F S8x128 .f32) :
    out0_B_2 c i arg2 harg2 arg3 harg3 arg4 harg4 hc0 x0 x1 xo2 = addf xo2 (addend x0 x1) := by
  unfold out0_B_2
  rw [View.read_writes_eq_canon _ _ _ (cover0_B_2 c i arg2 harg2 arg3 harg3 arg4 harg4 hc0 x0 x1 xo2)]
  unfold kernelRun0_B
  dsimp only
  sl_unfold_words
  rw [View.canon_unit_zero hz2]
  simp only [View.readAt_eq_ld, harg2.read_unread, harg3.read_unread, harg4.read_unread,
    View.ld_unit_zero (S := S8x128x512) hz3, View.ld_unit_zero (S := S8x128) hz2]
  unfold k0_pay1 addend
  simp only [shapeCast_self]

/-- At the first row tile the body leaves the zero block plus the addend. -/
theorem out_first (c : Dev nD) (i : grid0.Coords) (arg2 : Memref sig .tc .vmem S8x128x512 .f32) (harg2 : arg2.IsWhole)
    (arg3 : Memref sig .tc .vmem S8x128x512 .f32) (harg3 : arg3.IsWhole) (arg4 : Memref sig .tc .vmem S8x128 .f32) (harg4 : arg4.IsWhole)
    (hc0 : cond0_0 i) (x0 x1 : Vec F S8x128x512 .f32) :
    out0_A_2 c i arg2 harg2 arg3 harg3 arg4 harg4 hc0 x0 x1 = addf (zeroBlock (F := F)) (addend x0 x1) := by
  unfold out0_A_2
  rw [View.read_writes_eq_canon _ _ _ (cover0_A_2 c i arg2 harg2 arg3 harg3 arg4 harg4 hc0 x0 x1)]
  unfold kernelRun0_A
  dsimp only
  sl_unfold_words
  rw [View.canon_cons_unit_zero (S := S8x128) hz2, View.readCov_unit_zero (S := S8x128) _ hz2]
  simp only [View.readAt_eq_ld, harg2.read_unread, harg3.read_unread,
    View.ld_unit_zero (S := S8x128x512) hz3, View.ld_unit_zero (S := S8x128) hz2]
  unfold k0_pay1 k0_pay2 addend
  simp only [shapeCast_self]

end Cert.KernelIdeal.Stats

end
-- ==== Proof.StatsArray.lean ====
/-
  The statistics array the kernel region leaves, at the ideal instance.

  The grid is 8 sample groups × 4 row tiles, point `n` being group `n / 4`, row tile `n % 4`. The output block of a
  group is reset at its first row tile and written back after its fourth, so what is written back is
  `0 + addend(4q) + addend(4q+1) + addend(4q+2) + addend(4q+3)`, the addends of the group's four points: a fold over
  the run of points, unrolled to a sum. The eight blocks written back tile the 64 × 128 array, so the array ends
  holding, at row `8q + r`, that sum read at row `r` of the block.
-/
import proofs.«154915_j80479097193024_1_alg».proof.Proof.Pieces
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem
open Idealize.ShloMosaic.Pipeline (Dat)
open Idealize.ShloMosaic.ValueIdx
open scoped BigOperators

namespace Cert.KernelIdeal.Stats

open Cert.KernelIdeal Cert.KernelIdeal.Gen

variable (m : (ℓ : Loc nD τ sig) → Buf (Elt Ideal) ℓ) (ρ : Dev nD → PrngReg)

/-- Point `n`'s tile of the prediction and of the truth, as the region finds the arrays. -/
abbrev predTile (c : Dev nD) (n : ℕ) (h : n < cfg0.N) : Vec Ideal S8x128x512 .f32 := iblk m c 0 ⟨n, h⟩
abbrev truthTile (c : Dev nD) (n : ℕ) (h : n < cfg0.N) : Vec Ideal S8x128x512 .f32 := iblk m c 1 ⟨n, h⟩

/-- Point `n`'s addend (zero past the grid, where it is never used). -/
def pointAddend (c : Dev nD) (n : ℕ) : S8x128.Idx → EReal := fun j =>
  if h : n < cfg0.N then addend (predTile m c n h) (truthTile m c n h) j else 0

/-- The zero the block is reset to. -/
abbrev z0 : EReal := Ideal.ofBits .f32 0x00000000#32

/-- At a group's first row tile the block is the zero block plus the point's addend. -/
theorem reset (c : Dev nD) (n : ℕ) (h : n < cfg0.N) (h0 : n % 4 = 0) :
    outsAt0 m c n h = addf (zeroBlock (F := Ideal)) (addend (predTile m c n h) (truthTile m c n h)) :=
  (outsAt0_A m c ⟨n, h⟩ h0).trans (out_first ..)

/-- At a later row tile it is what the point before left plus the point's addend. -/
theorem step (c : Dev nD) (n : ℕ) (h : n + 1 < cfg0.N) (h0 : ¬(n + 1) % 4 = 0) :
    outsAt0 m c (n + 1) h
      = addf (outsAt0 m c n (Nat.lt_of_succ_lt h)) (addend (predTile m c (n + 1) h) (truthTile m c (n + 1) h)) := by
  rw [outsAt0_B m c ⟨n + 1, h⟩ h0, out_later]
  rfl

/-- So after a group's fourth row tile the block is zero plus the four addends. -/
theorem outsAt_fold (c : Dev nD) (n : ℕ) (h : n < cfg0.N) (h3 : n % 4 = 3) (j : S8x128.Idx) :
    outsAt0 m c n h j = z0 + ∑ s ∈ Finset.range 4, pointAddend m c (4 * (n / 4) + s) j := by
  have hN : cfg0.N = 32 := N_0
  have h' : 4 * (n / 4) + n % 4 < cfg0.N := by omega
  have e := Pipeline.eq_accAt_of_mod (N := cfg0.N) (fun n h => outsAt0 m c n h) 4
      (fun n h => addf (zeroBlock (F := Ideal)) (addend (predTile m c n h) (truthTile m c n h)))
      (fun n h acc => addf acc (addend (predTile m c n h) (truthTile m c n h)))
      (fun n h h0 => reset m c n h h0) (fun n h h0 => step m c n h h0) (by decide) n h h'
  have key := Pipeline.accAt_add_apply (N := cfg0.N) (ι := S8x128.Idx) (β := EReal)
      (fun n h => addf (zeroBlock (F := Ideal)) (addend (predTile m c n h) (truthTile m c n h)))
      (fun n h acc => addf acc (addend (predTile m c n h) (truthTile m c n h)))
      (fun _ => z0) (pointAddend m c) (4 * (n / 4)) 3
      (fun hb i => by
        show z0 + addend (predTile m c _ hb) (truthTile m c _ hb) i = z0 + pointAddend m c _ i
        unfold pointAddend; rw [dif_pos hb])
      (fun k hk acc i _ _ => by
        show acc i + addend (predTile m c k hk) (truthTile m c k hk) i = acc i + pointAddend m c k i
        unfold pointAddend; rw [dif_pos hk])
      (n % 4) (by omega) h' j
  rw [congrFun e j, key, h3]

/-- The statistics array: at row `8q + r`, zero plus the four addends of group `q` read at row `r`. -/
def statsArr (c : Dev nD) : S64x128.Idx → EReal := fun i =>
  z0 + ∑ s ∈ Finset.range 4, pointAddend m c (4 * ((i 0).val / 8) + s)
    (ix2 (⟨(i 0).val % 8, Nat.mod_lt _ (by decide)⟩ : Fin 8) (⟨(i 1).val, idx2_lt1 i⟩ : Fin 128))

/-- The output's block index at point `t`: the group on the sample axis, 0 on the column axis. -/
theorem out_index : ∀ t : Fin cfg0.N, win0_2.index t (0 : Fin 2) = t.val / 4 ∧ win0_2.index t (1 : Fin 2) = 0 :=
  (by decide +kernel : ∀ t : Fin grid0.N, _)

/-- The same addend at equal point numbers and equal indices. -/
theorem pointAddend_congr (c : Dev nD) {n n' : ℕ} {j j' : S8x128.Idx} (hn : n = n') (hj : j = j') :
    pointAddend m c n j = pointAddend m c n' j' := by subst hn; subst hj; rfl

/-- What a group's last point writes back is its block of the statistics array. -/
theorem flushed_eq (c : Dev nD) (t : Fin cfg0.N) (hf : (cfg0.win 2).flush t = true) :
    (dats m 0 c).flushed 2 t = ((cfg0.win 2).blk t).view.read (Elt Ideal) (statsArr m c) := by
  have hN : cfg0.N = 32 := N_0
  have h3 : t.val % 4 = 3 := (flush0_2 t).mp hf
  show (cfg0.win 2).cut (grid0.coords t) ((dats m 0 c).after 2 t) = _
  rw [after0_2]
  funext j
  show outsAt0 m c t.val t.isLt j = statsArr m c (((cfg0.win 2).blk t).view.emb j)
  rw [outsAt_fold m c t.val t.isLt h3]
  unfold statsArr
  obtain ⟨e0, e1⟩ := out_index t
  have hj0 : (j 0).val < 8 := (j 0).isLt
  have hj1 : (j 1).val < 128 := (j 1).isLt
  have k0 : ((((cfg0.win 2).blk t).view.emb j) 0).val = t.val / 4 * 8 + (j 0).val := by
    show win0_2.index t (0 : Fin 2) * 8 + 1 * (j 0).val = _
    rw [e0]; omega
  have k1 : ((((cfg0.win 2).blk t).view.emb j) 1).val = (j 1).val := by
    show win0_2.index t (1 : Fin 2) * 128 + 1 * (j 1).val = _
    rw [e1]; omega
  refine congrArg (z0 + ·) (Finset.sum_congr rfl fun s _ => ?_)
  refine pointAddend_congr m c (by rw [k0]; omega) ?_
  funext a
  match a with
  | ⟨0, _⟩ => exact Fin.ext (by show (j 0).val = _ % 8; rw [k0]; omega)
  | ⟨1, _⟩ => exact Fin.ext (by show (j 1).val = _; rw [k1])

/-- An index of the array is in point `t`'s block iff each coordinate is in the block's range on its axis. -/
theorem mem_blk (t : Fin cfg0.N) (i : S64x128.Idx) :
    i ∈ ((cfg0.win 2).blk t).view.set ↔ ∀ a : Fin 2, win0_2.index t a * S8x128.size a ≤ (i a).val ∧ (i a).val < win0_2.index t a * S8x128.size a + S8x128.size a := by
  show i ∈ ((View.whole main_v0).slice (win0_2.rect t)).set ↔ _
  rw [View.set_slice_whole, Rect.mem_set_unit]
  exact Iff.rfl

/-- The eight blocks written back tile the array, so it ends holding the statistics array. -/
theorem final (c : Dev nD) : (dats m 0 c).arrAt 2 cfg0.N = statsArr m c :=
  (dats m 0 c).arrAt_eq_of_cover 2 (statsArr m c) (flushed_eq m c) fun i => by
    have hN : cfg0.N = 32 := N_0
    have hi0 : (i 0).val < 64 := (i 0).isLt
    have hi1 : (i 1).val < 128 := (i 1).isLt
    refine ⟨⟨4 * ((i 0).val / 8) + 3, by omega⟩, (flush0_2 _).mpr (by show (4 * ((i 0).val / 8) + 3) % 4 = 3; omega), ?_⟩
    rw [mem_blk]
    obtain ⟨e0, e1⟩ := out_index ⟨4 * ((i 0).val / 8) + 3, by omega⟩
    intro a
    match a with
    | ⟨0, _⟩ =>
      show win0_2.index _ (0 : Fin 2) * 8 ≤ (i 0).val ∧ (i 0).val < win0_2.index _ (0 : Fin 2) * 8 + 8
      rw [e0]; show (4 * ((i 0).val / 8) + 3) / 4 * 8 ≤ _ ∧ _ < (4 * ((i 0).val / 8) + 3) / 4 * 8 + 8; omega
    | ⟨1, _⟩ =>
      show win0_2.index _ (1 : Fin 2) * 128 ≤ (i 1).val ∧ (i 1).val < win0_2.index _ (1 : Fin 2) * 128 + 128
      rw [e1]; omega

end Cert.KernelIdeal.Stats

end
-- ==== Proof.KernelRun.lean ====
/-
  The idealized kernel program's run, read: its result is the common tail of the statistics array the region leaves.

  After the region the program slices column 0, columns 1–3 and columns 4–6 out of the statistics array and applies
  the tail's operations; the region's array is the one the blocks written back tile (`final`), and no other buffer the
  tail reads is touched by the region.
-/
import proofs.«154915_j80479097193024_1_alg».proof.Proof.Tail
import proofs.«154915_j80479097193024_1_alg».proof.Proof.StatsArray
import Idealize.ShloMosaic.Lib.StableHlo.Run

noncomputable section

open Idealize.ShloMosaic Idealize.ShloMosaic.TcCoe Idealize.SL.Sem
open Idealize.ShloMosaic.Pipeline (Dat)
open Idealize.ShloMosaic.StableHlo

namespace Cert.KernelIdeal.Stats

open Cert.KernelIdeal Cert.KernelIdeal.Gen

variable (m : (ℓ : Loc nD τ sig) → Buf (Elt Ideal) ℓ) (ρ : Dev nD → PrngReg)

set_option maxHeartbeats 4000000 in
set_option maxRecDepth 8192 in
/-- The operations after the region, applied to the region's array, are the tail of the statistics array. -/
theorem tail_eq (c : Dev nD) :
    Pipeline.afterTail₀ cfgs (dats m) 0 (V0 m) [hostOps1] c main_v46 = ofStats (F := Ideal) (statsArr m c) := by
  unfold Pipeline.afterTail₀
  simp only [List.flatten_cons, List.flatten_nil, List.append_nil]
  after_results_simp
  have hW : Pipeline.withArrays (cfgs 0).spec c (V0 m c) (fun w => (dats m 0 c).arrAt w (cfgs 0).N) (Proc.devRef .tc main_v0)
      = statsArr m c :=
    (Pipeline.withArrays_arr spec0 launch0.win.arr_inj c _ _ 2).trans (final m c)
  rw [hW]
  rfl

/-- The result buffer is neither scoped nor one of the region's arrays. -/
theorem result_rest : main_v46 ∈ Pipeline.restRefs sig (cfgs 0).spec :=
  Pipeline.mem_restRefs_of main_v46 rfl (by decide)

/-- Every weakly fair execution terminates with the result at the tail of the statistics array, the arguments unchanged. -/
theorem run : θ_run defs (onTc (τ := τ) (main (F := Ideal))) ⟨m, fun _ => 0, ρ⟩ fun r => ∀ c : Dev nD,
      r.2.mem ((c : Thread nD τ).loc main_v46) = ofStats (F := Ideal) (statsArr m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
      ⟨((h c).2 main_v46 result_rest).trans (tail_eq m c),
       ((h c).1 0).trans (((dats m 0 c).arrAt_in 0 rfl _).trans ((A_eq m c 0).trans (V_main_arg0 m c))),
       ((h c).1 1).trans (((dats m 0 c).arrAt_in 1 rfl _).trans ((A_eq m c 1).trans (V_main_arg1 m c)))⟩)
    (run_main m ρ)

end Cert.KernelIdeal.Stats

end
-- ==== Proof.Scalars.lean ====
/-
  The per-entry functions of the statistics, as extended reals, in the kernel's spelling (suffix K) and in the
  reference's (suffix R), and the scalar facts that join them.

  * A one-bit comparison result widened to 32 bits and converted as a signed integer (the kernel's mask) and the same bit
    converted as an unsigned integer (the reference's) are both the indicator 0 / 1 of the bit.
  * The masked squared error of an entry: with `m` the indicator of `t < 1`,
    `(p - t)² (1 - m) + m (max p 0 - t)²`; the kernel multiplies `m` by the first factor of the second square, the
    reference by the whole square — the product of extended reals is associative, so they agree everywhere,
    infinities included.
  * The last histogram bin: the reference tests `4 < x ∧ x ≤ +∞`, the kernel `4 < x`; every extended real is `≤ +∞`.
-/
import Idealize.ShloMosaic.PureOps.Ideal
import Idealize.ShloMosaic.PureOps.Ideal.Laws

noncomputable section

namespace Cert.Stats

open Idealize.ShloMosaic

/-- The kernel's mask of a one-bit word: widened to 32 bits, read signed. -/
def maskK (b : BitVec 1) : EReal := FloatOps.sitofp (F := Ideal) .f32 (b.setWidth 32)

/-- The reference's mask of a one-bit word: read unsigned. -/
def maskR (b : BitVec 1) : EReal := FloatOps.uitofp (F := Ideal) .f32 b

/-- Both are the bit's value 0 / 1. -/
theorem maskK_eq (b : BitVec 1) : maskK b = maskR b := by
  show (((b.setWidth 32).toInt : ℝ) : EReal) = ((b.toNat : ℝ) : EReal)
  have h : ∀ b : BitVec 1, (b.setWidth 32).toInt = (b.toNat : Int) := by decide
  rw [h b]; simp

/-- The pattern 0x7F800000 denotes +∞. -/
theorem ofBits_inf : Ideal.ofBits .f32 0x7F800000#32 = ⊤ := by simp [Ideal.ofBits, Ideal.ieee]

/-- Every extended real is at most +∞, so the comparison bit is 1, -/
theorem cmp_le_top (x : EReal) : Ideal.cmp .ole x ⊤ = 1#1 := by simp [Ideal.cmp]

/-- and a conjunction with the bit 1 is the other bit. -/
theorem and_one (b : BitVec 1) : IntOp.andi b 1#1 = b := by
  have h : ∀ b : BitVec 1, b &&& 1#1 = b := by decide
  exact h b

/-- The words the two programs share: 0.0, 1.0, 2.0, 4.0 (never evaluated: the same word stands on both sides). -/
abbrev w0 : EReal := Ideal.ofBits .f32 0x00000000#32
abbrev w1 : EReal := Ideal.ofBits .f32 0x3F800000#32
abbrev w2 : EReal := Ideal.ofBits .f32 0x40000000#32
abbrev w4 : EReal := Ideal.ofBits .f32 0x40800000#32

/-- An entry's masked squared error as the kernel computes it. -/
def lossK (p t : EReal) : EReal :=
  (p - t) * (p - t) * (w1 - maskK (Ideal.cmp .olt t w1)) + maskK (Ideal.cmp .olt t w1) * (max p w0 - t) * (max p w0 - t)

/-- An entry's masked squared error as the reference computes it. -/
def lossR (p t : EReal) : EReal :=
  (p - t) * (p - t) * (w1 - maskR (Ideal.cmp .olt t w1)) + maskR (Ideal.cmp .olt t w1) * ((max p w0 - t) * (max p w0 - t))

theorem lossK_eq (p t : EReal) : lossK p t = lossR p t := by
  unfold lossK lossR
  rw [maskK_eq, mul_assoc (maskR _) (max p w0 - t) (max p w0 - t)]

/-- An entry's membership in the bin `(lo, hi]`, as 0 / 1: the kernel's and the reference's. -/
def binMidK (lo hi x : EReal) : EReal := maskK (IntOp.andi (Ideal.cmp .ogt x lo) (Ideal.cmp .ole x hi))
def binMidR (lo hi x : EReal) : EReal := maskR (IntOp.andi (Ideal.cmp .ogt x lo) (Ideal.cmp .ole x hi))

theorem binMidK_eq (lo hi x : EReal) : binMidK lo hi x = binMidR lo hi x := maskK_eq _

/-- An entry's membership in the unbounded bin `(lo, +∞)`, as 0 / 1, as the kernel tests it. -/
def binTopK (lo x : EReal) : EReal := maskK (Ideal.cmp .ogt x lo)

/-- The reference's last bin, with its test against +∞, is the kernel's. -/
theorem binTopK_eq (lo x : EReal) : binTopK lo x = binMidR lo (Ideal.ofBits .f32 0x7F800000#32) x := by
  unfold binTopK binMidR
  rw [ofBits_inf, cmp_le_top, and_one, maskK_eq]

end Cert.Stats

end
-- ==== Proof.Columns.lean ====
/-
  The addend of one grid point, read at its seven meaningful columns (at the ideal instance).

  The body joins seven 8 × 1 columns into an 8 × 7 block and that block with a zero block of 121 columns into the
  8 × 128 addend. Each of the seven is a tile sum: a per-entry function of the prediction and truth tiles summed over
  the tile's 512 columns (the lane reduction) and then over its 128 rows (the sublane reduction), both exact sums here.
  Column 0 sums the masked squared error; columns 1–3 the truth's membership in the three bins; columns 4–6 the
  prediction's.
-/
import proofs.«154915_j80479097193024_1_alg».proof.Proof.Pieces
import proofs.«154915_j80479097193024_1_alg».proof.Proof.Scalars
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem
open Idealize.ShloMosaic.ValueIdx
open scoped BigOperators

namespace Cert.KernelIdeal.Stats

open Cert.KernelIdeal Cert.KernelIdeal.Gen Cert.Stats

/-- A tile's per-sample total: the lane reduction then the sublane reduction of an 8 × 128 × 512 vector, viewed as an
    8 × 1 column, is at sample `r` the double sum over the tile's rows and columns. -/
theorem tileSum (v : FVec Ideal S8x128x512 .f32) (r : Fin 8) :
    shapeCast S8x1 (multiReduction .add [1] S8 (multiReduction .add [2] S8x128 v 0x00000000#32 reduces_S8x128x512_S8x128 (.inl rfl) rfl)
        0x00000000#32 reduces_S8x128_S8 (.inl rfl) rfl) shapeCasts_S8_S8x1 (ix2 r (0 : Fin 1))
      = ∑ h : Fin 128, ∑ w : Fin 512, v (ix3 r h w) := by
  refine (shapeCast_apply _ shapeCasts_S8_S8x1 (ix2 r (0 : Fin 1)) (ix1 r) ?_).trans ?_
  · rw [Shape.rowMajor_val_one, Shape.rowMajor_val_two]; simp
  refine (Ideal.multiReduction_add_single _ 0x00000000#32 reduces_S8x128_S8 (.inl rfl) rfl (ix1 r)).trans ?_
  show ∑ h : Fin 128, _ = _
  refine Finset.sum_congr rfl fun h _ => ?_
  refine (Ideal.multiReduction_add_single v 0x00000000#32 reduces_S8x128x512_S8x128 (.inl rfl) rfl _).trans ?_
  show ∑ w : Fin 512, _ = _
  refine Finset.sum_congr rfl fun w _ => ?_
  exact congrArg v (funext fun a => match a with | ⟨0, _⟩ => rfl | ⟨1, _⟩ => rfl | ⟨2, _⟩ => rfl)

/-- Seven 8 × 1 columns joined side by side, then joined with a block of 121 further columns: column `k < 7` of the
    result at row `r` is the `k`-th column at row `r`. -/
theorem joined_col (p0 p1 p2 p3 p4 p5 p6 : FVec Ideal S8x1 .f32) (z : FVec Ideal S8x121 .f32) (r : Fin 8) (k : Fin 7) :
    concatenate S8x128 1
        [⟨S8x7, concatenate S8x7 1 [⟨S8x1, p0⟩, ⟨S8x1, p1⟩, ⟨S8x1, p2⟩, ⟨S8x1, p3⟩, ⟨S8x1, p4⟩, ⟨S8x1, p5⟩, ⟨S8x1, p6⟩]
            concatenates_S8x1_S8x1_S8x1_S8x1_S8x1_S8x1_S8x1_S8x7_d1⟩, ⟨S8x121, z⟩]
        concatenates_S8x7_S8x121_S8x128_d1 (ix2 r (⟨k.val, by have := k.isLt; omega⟩ : Fin 128))
      = (![p0, p1, p2, p3, p4, p5, p6] k) (ix2 r (0 : Fin 1)) := by
  refine (concatenate_pair_apply_left (t := S8x128) (s₁ := S8x7) (s₂ := S8x121) (1 : Fin 2) _ _ concatenates_S8x7_S8x121_S8x128_d1
    (ix2 r (⟨k.val, by have := k.isLt; omega⟩ : Fin 128)) rfl (ix2 r k) (fun b => by match b with | ⟨0, _⟩ => rfl | ⟨1, _⟩ => rfl)).trans ?_
  refine concatenate_apply_piece (t := S8x7) (1 : Fin 2) _ _ (ix2 r k) k.val (by show k.val < 7; exact k.isLt) S8x1
    (![p0, p1, p2, p3, p4, p5, p6] k) ?_ rfl k.val ?_
    (ix2 r (0 : Fin 1)) (fun b hb => by match b with | ⟨0, _⟩ => rfl | ⟨1, _⟩ => exact absurd rfl hb) (by show k.val + 0 = k.val; omega)
  · fin_cases k <;> rfl
  · fin_cases k <;> rfl

/-- The per-entry function of column `k`, of an entry `p` of the prediction and `t` of the truth, in the kernel's spelling. -/
def colFn (k : Fin 7) (p t : EReal) : EReal :=
  match k with
  | ⟨0, _⟩ => lossK p t
  | ⟨1, _⟩ => binMidK w0 w2 t
  | ⟨2, _⟩ => binMidK w2 w4 t
  | ⟨3, _⟩ => binTopK w4 t
  | ⟨4, _⟩ => binMidK w0 w2 p
  | ⟨5, _⟩ => binMidK w2 w4 p
  | ⟨6, _⟩ => binTopK w4 p
  | ⟨n + 7, h⟩ => absurd h (by omega)

/-- The same in the reference's spelling. -/
def colFnR (k : Fin 7) (p t : EReal) : EReal :=
  match k with
  | ⟨0, _⟩ => lossR p t
  | ⟨1, _⟩ => binMidR w0 w2 t
  | ⟨2, _⟩ => binMidR w2 w4 t
  | ⟨3, _⟩ => binMidR w4 (Ideal.ofBits .f32 0x7F800000#32) t
  | ⟨4, _⟩ => binMidR w0 w2 p
  | ⟨5, _⟩ => binMidR w2 w4 p
  | ⟨6, _⟩ => binMidR w4 (Ideal.ofBits .f32 0x7F800000#32) p
  | ⟨n + 7, h⟩ => absurd h (by omega)

theorem colFn_eq (k : Fin 7) (p t : EReal) : colFn k p t = colFnR k p t := by
  match k with
  | ⟨0, _⟩ => exact lossK_eq p t
  | ⟨1, _⟩ => exact binMidK_eq _ _ t
  | ⟨2, _⟩ => exact binMidK_eq _ _ t
  | ⟨3, _⟩ => exact binTopK_eq _ t
  | ⟨4, _⟩ => exact binMidK_eq _ _ p
  | ⟨5, _⟩ => exact binMidK_eq _ _ p
  | ⟨6, _⟩ => exact binTopK_eq _ p
  | ⟨n + 7, h⟩ => exact absurd h (by omega)

/-- Column `k < 7` of the addend at sample `r`: the tile sum of column `k`'s per-entry function. The addend is the
    join of the seven tile sums with the zero block; each tile sum's vector read at an entry is the column's per-entry
    function of the two tiles' entries, the vector operations being entrywise. -/
theorem addend_col (x0 x1 : Vec Ideal S8x128x512 .f32) (r : Fin 8) (k : Fin 7) :
    addend x0 x1 (ix2 r (⟨k.val, by have := k.isLt; omega⟩ : Fin 128))
      = ∑ h : Fin 128, ∑ w : Fin 512, colFn k (x0 (ix3 r h w)) (x1 (ix3 r h w)) := by
  unfold addend k0_pay6 k0_pay3 k0_pay4
  dsimp only
  refine (joined_col _ _ _ _ _ _ _ _ r k).trans ?_
  fin_cases k <;>
    exact (tileSum _ r).trans (Finset.sum_congr rfl fun h _ => Finset.sum_congr rfl fun w _ => rfl)

end Cert.KernelIdeal.Stats

end
-- ==== Proof.SumLaws.lean ====
/-
  Re-indexing laws for finite sums, over any additive commutative monoid (the extended reals are one: sums there may be
  regrouped and reordered freely, infinities included).

  The kernel sums a sample's 512 × 512 entries tile by tile: four row tiles of 128 rows, each tile's rows and columns
  summed, the four tile sums added up. The reference flattens the sample to 262144 entries, entry `k` being row
  `k / 512`, column `k % 512`, and sums those. Both are the double sum over rows and columns.
-/
import Idealize.ShloMosaic.Lib.ValueIdx

open scoped BigOperators

namespace Cert.Stats

open Idealize.ShloMosaic Idealize.ShloMosaic.ValueIdx

variable {M : Type*} [AddCommMonoid M]

/-- A row number below 512 is a tile number below 4 and a row inside the tile below 128: row `128 s + h`. -/
def tileRow : Fin 4 × Fin 128 ≃ Fin 512 where
  toFun p := ⟨128 * p.1.val + p.2.val, by have := p.1.isLt; have := p.2.isLt; omega⟩
  invFun y := (⟨y.val / 128, by have := y.isLt; omega⟩, ⟨y.val % 128, Nat.mod_lt _ (by decide)⟩)
  left_inv p := by
    have h1 := p.1.isLt; have h2 := p.2.isLt
    apply Prod.ext <;> apply Fin.ext <;> simp <;> omega
  right_inv y := by apply Fin.ext; simp; omega

/-- A flat position below 262144 is a row and a column: position `512 y + w`. -/
def flatPos : Fin 512 × Fin 512 ≃ Fin 262144 where
  toFun p := ⟨512 * p.1.val + p.2.val, by have := p.1.isLt; have := p.2.isLt; omega⟩
  invFun k := (⟨k.val / 512, by have := k.isLt; omega⟩, ⟨k.val % 512, Nat.mod_lt _ (by decide)⟩)
  left_inv p := by
    have h1 := p.1.isLt; have h2 := p.2.isLt
    apply Prod.ext <;> apply Fin.ext <;> simp <;> omega
  right_inv k := by apply Fin.ext; simp; omega

/-- The sum over the four row tiles of each tile's sum over its rows and columns is the sum over all rows and columns. -/
theorem sum_tiles (f : Fin 512 → Fin 512 → M) :
    ∑ s : Fin 4, ∑ h : Fin 128, ∑ w : Fin 512, f (tileRow (s, h)) w = ∑ y : Fin 512, ∑ w : Fin 512, f y w := by
  rw [← Equiv.sum_comp tileRow (fun y => ∑ w : Fin 512, f y w), Fintype.sum_prod_type]

/-- The sum over the flattened sample is the sum over all rows and columns. -/
theorem sum_flat (f : Fin 512 → Fin 512 → M) :
    ∑ k : Fin 262144, f (flatPos.symm k).1 (flatPos.symm k).2 = ∑ y : Fin 512, ∑ w : Fin 512, f y w := by
  rw [← Equiv.sum_comp flatPos (fun k => f (flatPos.symm k).1 (flatPos.symm k).2), Fintype.sum_prod_type]
  simp only [Equiv.symm_apply_apply]

/-- So the tiled sum is the flattened sum. -/
theorem sum_tiles_eq_flat (f : Fin 512 → Fin 512 → M) :
    ∑ s : Fin 4, ∑ h : Fin 128, ∑ w : Fin 512, f (tileRow (s, h)) w
      = ∑ k : Fin 262144, f (flatPos.symm k).1 (flatPos.symm k).2 :=
  (sum_tiles f).trans (sum_flat f).symm

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- A rank-1 index set is its coordinate range, so a sum over it is the sum over the coordinate. -/
def idxEquiv1 {n : Nat} : (⟨1, ![n]⟩ : Shape).Idx ≃ Fin n where
  toFun i := i 0
  invFun a := ix1 a
  left_inv i := (eq_ix1 i).symm
  right_inv _ := rfl

theorem sum_idx1 {n : Nat} (f : (⟨1, ![n]⟩ : Shape).Idx → M) : ∑ i, f i = ∑ a : Fin n, f (ix1 a) := by
  rw [← Equiv.sum_comp (idxEquiv1 (n := n)).symm f]
  rfl

end Cert.Stats
-- ==== Proof.StatsCols.lean ====
/-
  The statistics array in the arrays' own coordinates.

  Point `n` of the grid reads, of each input array, samples `8 (n / 4) … 8 (n / 4) + 7` and rows
  `128 (n % 4) … 128 (n % 4) + 127`, all 512 columns. So the four points `4q … 4q + 3` of sample group `q` read the
  four row tiles of the same eight samples, and row `b = 8q + r` of the statistics array holds, in column `k < 7`,
  zero plus the sum over ALL 512 rows and 512 columns of sample `b` of column `k`'s per-entry function.
-/
import proofs.«154915_j80479097193024_1_alg».proof.Proof.StatsArray
import proofs.«154915_j80479097193024_1_alg».proof.Proof.Columns
import proofs.«154915_j80479097193024_1_alg».proof.Proof.SumLaws

noncomputable section

open Idealize.ShloMosaic Idealize.ShloMosaic.TcCoe Idealize.SL.Sem
open Idealize.ShloMosaic.ValueIdx
open scoped BigOperators

namespace Cert.KernelIdeal.Stats

open Cert.KernelIdeal Cert.KernelIdeal.Gen Cert.Stats

variable (m : (ℓ : Loc nD τ sig) → Buf (Elt Ideal) ℓ)

/-- The two inputs' block indices at point `t`: the sample group, the row tile, 0 on the column axis. -/
theorem in_index : ∀ t : Fin cfg0.N,
    win0_0.index t (0 : Fin 3) = t.val / 4 ∧ win0_0.index t (1 : Fin 3) = t.val % 4 ∧ win0_0.index t (2 : Fin 3) = 0
    ∧ win0_1.index t (0 : Fin 3) = t.val / 4 ∧ win0_1.index t (1 : Fin 3) = t.val % 4 ∧ win0_1.index t (2 : Fin 3) = 0 :=
  (by decide +kernel : ∀ t : Fin grid0.N, _)

/-- The sample that row `r` of point `n`'s tile is. -/
def sampleOf (n : ℕ) (hn : n < 32) (r : Fin 8) : Fin 64 := ⟨8 * (n / 4) + r.val, by have := r.isLt; omega⟩

/-- The row tile point `n` reads. -/
def rowTileOf (n : ℕ) : Fin 4 := ⟨n % 4, Nat.mod_lt _ (by decide)⟩

theorem sampleOf_group (b : Fin 64) (s : Fin 4) (hn : 4 * (b.val / 8) + s.val < 32) :
    sampleOf (4 * (b.val / 8) + s.val) hn ⟨b.val % 8, Nat.mod_lt _ (by decide)⟩ = b := by
  apply Fin.ext; have := b.isLt; have := s.isLt; show 8 * ((4 * (b.val / 8) + s.val) / 4) + b.val % 8 = b.val; omega

theorem rowTileOf_group (b : Fin 64) (s : Fin 4) : rowTileOf (4 * (b.val / 8) + s.val) = s := by
  apply Fin.ext; have := s.isLt; show (4 * (b.val / 8) + s.val) % 4 = s.val; omega

/-- Point `n`'s prediction tile at (sample `r`, row `hh`, column `w`) is the prediction at that sample, row tile and column. -/
theorem predTile_apply (c : Dev nD) (n : ℕ) (h : n < cfg0.N) (r : Fin 8) (hh : Fin 128) (w : Fin 512) :
    predTile m c n h (ix3 r hh w)
      = m ((c : Thread nD τ).loc main_arg0) (ix3 (sampleOf n (lt_of_lt_of_eq h N_0) r) (tileRow (rowTileOf n, hh)) w) := by
  have e0 : win0_0.index ⟨n, h⟩ (0 : Fin 3) = n / 4 := (in_index ⟨n, h⟩).1
  have e1 : win0_0.index ⟨n, h⟩ (1 : Fin 3) = n % 4 := (in_index ⟨n, h⟩).2.1
  have e2 : win0_0.index ⟨n, h⟩ (2 : Fin 3) = 0 := (in_index ⟨n, h⟩).2.2.1
  unfold predTile iblk
  rw [View.read_apply]
  show m ((c : Thread nD τ).loc main_arg0) _ = m ((c : Thread nD τ).loc main_arg0) _
  congr 1
  funext a
  apply Fin.ext
  match a with
  | ⟨0, _⟩ => show win0_0.index ⟨n, h⟩ (0 : Fin 3) * 8 + 1 * r.val = 8 * (n / 4) + r.val; rw [e0]; omega
  | ⟨1, _⟩ => show win0_0.index ⟨n, h⟩ (1 : Fin 3) * 128 + 1 * hh.val = 128 * (n % 4) + hh.val; rw [e1]; omega
  | ⟨2, _⟩ => show win0_0.index ⟨n, h⟩ (2 : Fin 3) * 512 + 1 * w.val = w.val; rw [e2]; omega

/-- The same for the truth tile. -/
theorem truthTile_apply (c : Dev nD) (n : ℕ) (h : n < cfg0.N) (r : Fin 8) (hh : Fin 128) (w : Fin 512) :
    truthTile m c n h (ix3 r hh w)
      = m ((c : Thread nD τ).loc main_arg1) (ix3 (sampleOf n (lt_of_lt_of_eq h N_0) r) (tileRow (rowTileOf n, hh)) w) := by
  have e0 : win0_1.index ⟨n, h⟩ (0 : Fin 3) = n / 4 := (in_index ⟨n, h⟩).2.2.2.1
  have e1 : win0_1.index ⟨n, h⟩ (1 : Fin 3) = n % 4 := (in_index ⟨n, h⟩).2.2.2.2.1
  have e2 : win0_1.index ⟨n, h⟩ (2 : Fin 3) = 0 := (in_index ⟨n, h⟩).2.2.2.2.2
  unfold truthTile iblk
  rw [View.read_apply]
  show m ((c : Thread nD τ).loc main_arg1) _ = m ((c : Thread nD τ).loc main_arg1) _
  congr 1
  funext a
  apply Fin.ext
  match a with
  | ⟨0, _⟩ => show win0_1.index ⟨n, h⟩ (0 : Fin 3) * 8 + 1 * r.val = 8 * (n / 4) + r.val; rw [e0]; omega
  | ⟨1, _⟩ => show win0_1.index ⟨n, h⟩ (1 : Fin 3) * 128 + 1 * hh.val = 128 * (n % 4) + hh.val; rw [e1]; omega
  | ⟨2, _⟩ => show win0_1.index ⟨n, h⟩ (2 : Fin 3) * 512 + 1 * w.val = w.val; rw [e2]; omega

/-- Row `b`, column `k < 7` of the statistics array: zero plus the sum over sample `b`'s rows and columns of column
    `k`'s per-entry function of the prediction and the truth. -/
theorem statsArr_col (c : Dev nD) (b : Fin 64) (k : Fin 7) :
    statsArr m c (ix2 b (⟨k.val, by have := k.isLt; omega⟩ : Fin 128))
      = z0 + ∑ y : Fin 512, ∑ w : Fin 512,
          colFn k (m ((c : Thread nD τ).loc main_arg0) (ix3 b y w)) (m ((c : Thread nD τ).loc main_arg1) (ix3 b y w)) := by
  have hN : cfg0.N = 32 := N_0
  have hb := b.isLt
  unfold statsArr
  refine congrArg (z0 + ·) ?_
  rw [Finset.sum_range, ← sum_tiles (fun y w => colFn k (m ((c : Thread nD τ).loc main_arg0) (ix3 b y w)) (m ((c : Thread nD τ).loc main_arg1) (ix3 b y w)))]
  refine Finset.sum_congr rfl fun s _ => ?_
  have hs := s.isLt
  have hn : 4 * (b.val / 8) + s.val < cfg0.N := by omega
  show pointAddend m c (4 * (b.val / 8) + s.val) (ix2 (⟨b.val % 8, Nat.mod_lt _ (by decide)⟩ : Fin 8) (⟨k.val, by have := k.isLt; omega⟩ : Fin 128)) = _
  unfold pointAddend
  show (if h : 4 * (b.val / 8) + s.val < cfg0.N then addend (predTile m c _ h) (truthTile m c _ h) (ix2 (⟨b.val % 8, Nat.mod_lt _ (by decide)⟩ : Fin 8) (⟨k.val, by have := k.isLt; omega⟩ : Fin 128)) else 0) = _
  rw [dif_pos hn, addend_col]
  refine Finset.sum_congr rfl fun h _ => Finset.sum_congr rfl fun w _ => ?_
  rw [predTile_apply, truthTile_apply, sampleOf_group, rowTileOf_group]

end Cert.KernelIdeal.Stats

end
-- ==== Proof.RefStats.lean ====
/-
  The reference's statistics, read at an index (at the ideal instance).

  The reference flattens each sample to 262144 entries (entry `k` is row `k / 512`, column `k % 512`), tests each entry
  against a bin's edges, converts the test to 0 / 1 and sums over the entries from an initial zero: per sample and bin,
  zero plus the double sum over rows and columns of the bin's indicator. The three counts of an array are joined as the
  columns of a 64 × 3 table. The masked squared error is summed over all samples, rows and columns at once.
-/
import proofs.«154915_j80479097193024_1_alg».proof.Proof.Gen.ReferenceIdeal.Read
import proofs.«154915_j80479097193024_1_alg».proof.Proof.Scalars
import proofs.«154915_j80479097193024_1_alg».proof.Proof.SumLaws
import Idealize.ShloMosaic.Lib.Pipeline.Value
import Idealize.ShloMosaic.Lib.ValueIdx

noncomputable section

open Idealize.ShloMosaic
open Idealize.ShloMosaic.ValueIdx
open scoped BigOperators

namespace Cert.ReferenceIdeal.Stats

open Cert.ReferenceIdeal Cert.ReferenceIdeal.Gen Cert.ReferenceIdeal.Read Cert.Stats

/-- An input array's contents at the ideal instance. -/
abbrev Arr : Type := (⟨S64x512x512, .f32⟩ : BufTy).Contents (Elt Ideal)

/-- The flattening: an index map that sends flat position `k` of sample `b` to the row-major position's sample, row and
    column reads entry `k` of sample `b` at row `k / 512`, column `k % 512` of that sample. -/
theorem flat_index (idx : S64x262144.Idx → S64x512x512.Idx)
    (hidx : ∀ j, (idx j 0).val = ((j 0).val * 262144 + (j 1).val) / 262144
      ∧ (idx j 1).val = ((j 0).val * 262144 + (j 1).val) / 512 % 512 ∧ (idx j 2).val = ((j 0).val * 262144 + (j 1).val) % 512)
    (j : S64x262144.Idx) (b : Fin 64) (k : Fin 262144) (h0 : (j 0).val = b.val) (h1 : (j 1).val = k.val) :
    idx j = ix3 b (flatPos.symm k).1 (flatPos.symm k).2 := by
  have hb := b.isLt
  have hk := k.isLt
  obtain ⟨e0, e1, e2⟩ := hidx j
  funext a
  apply Fin.ext
  match a with
  | ⟨0, _⟩ => show (idx j 0).val = b.val; rw [e0, h0, h1]; omega
  | ⟨1, _⟩ => show (idx j 1).val = k.val / 512; rw [e1, h0, h1]; omega
  | ⟨2, _⟩ => show (idx j 2).val = k.val % 512; rw [e2, h0, h1]; omega

/-- A BIN COUNT. Let `data` be an array read through the flattening, `lob` and `hib` the bin's edges as splat arrays,
    `conv` the 0 / 1 conversion of the test "above `lo` and at most `hi`" entry by entry, and `red` at a sample zero plus
    the sum of `conv` over the sample's flat positions. Then `red` at sample `b` is zero plus the double sum over the
    sample's rows and columns of the bin's indicator. -/
theorem count_of (x : Arr) (lo hi : EReal)
    (idx : S64x262144.Idx → S64x512x512.Idx)
    (hidx : ∀ j, (idx j 0).val = ((j 0).val * 262144 + (j 1).val) / 262144
      ∧ (idx j 1).val = ((j 0).val * 262144 + (j 1).val) / 512 % 512 ∧ (idx j 2).val = ((j 0).val * 262144 + (j 1).val) % 512)
    (data : S64x262144.Idx → EReal) (hdata : ∀ j, data j = x (idx j))
    (lob : S64x262144.Idx → EReal) (hlo : ∀ j, lob j = lo) (hib : S64x262144.Idx → EReal) (hhi : ∀ j, hib j = hi)
    (conv : S64x262144.Idx → EReal)
    (hconv : ∀ j, conv j = maskR (IntOp.andi (Ideal.cmp .ogt (data j) (lob j)) (Ideal.cmp .ole (data j) (hib j))))
    (red : S64.Idx → EReal) (pos : S64.Idx → Fin 262144 → S64x262144.Idx)
    (hpos : ∀ (b : Fin 64) (k : Fin 262144), (pos (ix1 b) k 0).val = b.val ∧ (pos (ix1 b) k 1).val = k.val)
    (hsum : ∀ i, red i = w0 + ∑ k : Fin 262144, conv (pos i k)) (b : Fin 64) :
    red (ix1 b) = w0 + ∑ y : Fin 512, ∑ w : Fin 512, binMidR lo hi (x (ix3 b y w)) := by
  rw [hsum, ← sum_flat (fun y w => binMidR lo hi (x (ix3 b y w)))]
  refine congrArg (w0 + ·) (Finset.sum_congr rfl fun k _ => ?_)
  rw [hconv, hdata, hlo, hhi, flat_index idx hidx _ b k (hpos b k).1 (hpos b k).2]
  rfl

/-- The truth's three bin counts and the prediction's three, each an instance. -/
theorem count_truth0 (x1 : Arr) (b : Fin 64) :
    val_main_v22 (F := Ideal) x1 (ix1 b) = w0 + ∑ y : Fin 512, ∑ w : Fin 512, binMidR w0 w2 (x1 (ix3 b y w)) :=
  count_of x1 w0 w2 idx_main_v15 (fun _ => ⟨rfl, rfl, rfl⟩) (val_main_v15 (F := Ideal) x1) (val_main_v15_apply x1)
    (val_main_v16 (F := Ideal)) (fun j => (val_main_v16_apply j).trans rfl) (val_main_v18 (F := Ideal)) (fun j => (val_main_v18_apply j).trans rfl)
    (val_main_v21 (F := Ideal) x1) (fun _ => rfl) (val_main_v22 (F := Ideal) x1) idx_main_v22 (fun _ _ => ⟨rfl, rfl⟩)
    (fun i => val_main_v22_apply x1 i) b

theorem count_truth1 (x1 : Arr) (b : Fin 64) :
    val_main_v29 (F := Ideal) x1 (ix1 b) = w0 + ∑ y : Fin 512, ∑ w : Fin 512, binMidR w2 w4 (x1 (ix3 b y w)) :=
  count_of x1 w2 w4 idx_main_v15 (fun _ => ⟨rfl, rfl, rfl⟩) (val_main_v15 (F := Ideal) x1) (val_main_v15_apply x1)
    (val_main_v23 (F := Ideal)) (fun j => (val_main_v23_apply j).trans rfl) (val_main_v25 (F := Ideal)) (fun j => (val_main_v25_apply j).trans rfl)
    (val_main_v28 (F := Ideal) x1) (fun _ => rfl) (val_main_v29 (F := Ideal) x1) idx_main_v29 (fun _ _ => ⟨rfl, rfl⟩)
    (fun i => val_main_v29_apply x1 i) b

theorem count_truth2 (x1 : Arr) (b : Fin 64) :
    val_main_v36 (F := Ideal) x1 (ix1 b)
      = w0 + ∑ y : Fin 512, ∑ w : Fin 512, binMidR w4 (Ideal.ofBits .f32 0x7F800000#32) (x1 (ix3 b y w)) :=
  count_of x1 w4 (Ideal.ofBits .f32 0x7F800000#32) idx_main_v15 (fun _ => ⟨rfl, rfl, rfl⟩) (val_main_v15 (F := Ideal) x1) (val_main_v15_apply x1)
    (val_main_v30 (F := Ideal)) (fun j => (val_main_v30_apply j).trans rfl) (val_main_v32 (F := Ideal)) (fun j => (val_main_v32_apply j).trans rfl)
    (val_main_v35 (F := Ideal) x1) (fun _ => rfl) (val_main_v36 (F := Ideal) x1) idx_main_v36 (fun _ _ => ⟨rfl, rfl⟩)
    (fun i => val_main_v36_apply x1 i) b

theorem count_pred0 (x0 : Arr) (b : Fin 64) :
    val_main_v61 (F := Ideal) x0 (ix1 b) = w0 + ∑ y : Fin 512, ∑ w : Fin 512, binMidR w0 w2 (x0 (ix3 b y w)) :=
  count_of x0 w0 w2 idx_main_v54 (fun _ => ⟨rfl, rfl, rfl⟩) (val_main_v54 (F := Ideal) x0) (val_main_v54_apply x0)
    (val_main_v55 (F := Ideal)) (fun j => (val_main_v55_apply j).trans rfl) (val_main_v57 (F := Ideal)) (fun j => (val_main_v57_apply j).trans rfl)
    (val_main_v60 (F := Ideal) x0) (fun _ => rfl) (val_main_v61 (F := Ideal) x0) idx_main_v61 (fun _ _ => ⟨rfl, rfl⟩)
    (fun i => val_main_v61_apply x0 i) b

theorem count_pred1 (x0 : Arr) (b : Fin 64) :
    val_main_v68 (F := Ideal) x0 (ix1 b) = w0 + ∑ y : Fin 512, ∑ w : Fin 512, binMidR w2 w4 (x0 (ix3 b y w)) :=
  count_of x0 w2 w4 idx_main_v54 (fun _ => ⟨rfl, rfl, rfl⟩) (val_main_v54 (F := Ideal) x0) (val_main_v54_apply x0)
    (val_main_v62 (F := Ideal)) (fun j => (val_main_v62_apply j).trans rfl) (val_main_v64 (F := Ideal)) (fun j => (val_main_v64_apply j).trans rfl)
    (val_main_v67 (F := Ideal) x0) (fun _ => rfl) (val_main_v68 (F := Ideal) x0) idx_main_v68 (fun _ _ => ⟨rfl, rfl⟩)
    (fun i => val_main_v68_apply x0 i) b

theorem count_pred2 (x0 : Arr) (b : Fin 64) :
    val_main_v75 (F := Ideal) x0 (ix1 b)
      = w0 + ∑ y : Fin 512, ∑ w : Fin 512, binMidR w4 (Ideal.ofBits .f32 0x7F800000#32) (x0 (ix3 b y w)) :=
  count_of x0 w4 (Ideal.ofBits .f32 0x7F800000#32) idx_main_v54 (fun _ => ⟨rfl, rfl, rfl⟩) (val_main_v54 (F := Ideal) x0) (val_main_v54_apply x0)
    (val_main_v69 (F := Ideal)) (fun j => (val_main_v69_apply j).trans rfl) (val_main_v71 (F := Ideal)) (fun j => (val_main_v71_apply j).trans rfl)
    (val_main_v74 (F := Ideal) x0) (fun _ => rfl) (val_main_v75 (F := Ideal) x0) idx_main_v75 (fun _ _ => ⟨rfl, rfl⟩)
    (fun i => val_main_v75_apply x0 i) b

/-- A rank-1 vector viewed as a 64 × 1 column reads at (`b`, 0) the vector at `b`. -/
theorem col_of_vec (v : FVec Ideal S64 .f32) (b : Fin 64) :
    broadcastInDim S64x1 ![0] bcast_S64_S64x1_0 v (ix2 b (0 : Fin 1)) = v (ix1 b) :=
  broadcastInDim_apply _ bcast_S64_S64x1_0 v (ix2 b (0 : Fin 1)) (ix1 b) (fun a => match a with
    | ⟨0, _⟩ => by show b.val = if (64 : Nat) = 1 then 0 else b.val; rw [if_neg (by decide)])

/-- The `k`-th of three. -/
abbrev pick3 {α : Type} (a0 a1 a2 : α) (k : Fin 3) : α :=
  match k with
  | ⟨0, _⟩ => a0
  | ⟨1, _⟩ => a1
  | ⟨2, _⟩ => a2
  | ⟨n + 3, h⟩ => absurd h (by omega)

/-- Three 64 × 1 columns joined side by side: column `k` of the result at sample `b` is the `k`-th column at `b`. -/
theorem joined3 (q0 q1 q2 : FVec Ideal S64x1 .f32) (b : Fin 64) (k : Fin 3) :
    concatenate S64x3 1 [⟨S64x1, q0⟩, ⟨S64x1, q1⟩, ⟨S64x1, q2⟩] concatenates_S64x1_S64x1_S64x1_S64x3_d1 (ix2 b k)
      = (pick3 q0 q1 q2 k) (ix2 b (0 : Fin 1)) := by
  refine concatenate_apply_piece (t := S64x3) (1 : Fin 2) _ _ (ix2 b k) k.val (by show k.val < 3; exact k.isLt) S64x1
    (pick3 q0 q1 q2 k) ?_ rfl k.val ?_
    (ix2 b (0 : Fin 1)) (fun a ha => by match a with | ⟨0, _⟩ => rfl | ⟨1, _⟩ => exact absurd rfl ha) (by show k.val + 0 = k.val; omega)
  · fin_cases k <;> rfl
  · fin_cases k <;> rfl

/-- The indicator of bin `k` of the three: (0, 2], (2, 4], (4, +∞]. -/
def binR (k : Fin 3) (x : EReal) : EReal :=
  match k with
  | ⟨0, _⟩ => binMidR w0 w2 x
  | ⟨1, _⟩ => binMidR w2 w4 x
  | ⟨2, _⟩ => binMidR w4 (Ideal.ofBits .f32 0x7F800000#32) x
  | ⟨n + 3, h⟩ => absurd h (by omega)

/-- The truth's 64 × 3 count table at sample `b`, bin `k`. -/
theorem truth_table (x1 : Arr) (b : Fin 64) (k : Fin 3) :
    val_main_v40 (F := Ideal) x1 (ix2 b k) = w0 + ∑ y : Fin 512, ∑ w : Fin 512, binR k (x1 (ix3 b y w)) := by
  unfold val_main_v40 val_main_v37 val_main_v38 val_main_v39
  refine (joined3 _ _ _ b k).trans ?_
  match k with
  | ⟨0, _⟩ => exact (col_of_vec (val_main_v22 (F := Ideal) x1) b).trans (count_truth0 x1 b)
  | ⟨1, _⟩ => exact (col_of_vec (val_main_v29 (F := Ideal) x1) b).trans (count_truth1 x1 b)
  | ⟨2, _⟩ => exact (col_of_vec (val_main_v36 (F := Ideal) x1) b).trans (count_truth2 x1 b)
  | ⟨n + 3, h⟩ => exact absurd h (by omega)

/-- The prediction's 64 × 3 count table at sample `b`, bin `k`. -/
theorem pred_table (x0 : Arr) (b : Fin 64) (k : Fin 3) :
    val_main_v79 (F := Ideal) x0 (ix2 b k) = w0 + ∑ y : Fin 512, ∑ w : Fin 512, binR k (x0 (ix3 b y w)) := by
  unfold val_main_v79 val_main_v76 val_main_v77 val_main_v78
  refine (joined3 _ _ _ b k).trans ?_
  match k with
  | ⟨0, _⟩ => exact (col_of_vec (val_main_v61 (F := Ideal) x0) b).trans (count_pred0 x0 b)
  | ⟨1, _⟩ => exact (col_of_vec (val_main_v68 (F := Ideal) x0) b).trans (count_pred1 x0 b)
  | ⟨2, _⟩ => exact (col_of_vec (val_main_v75 (F := Ideal) x0) b).trans (count_pred2 x0 b)
  | ⟨n + 3, h⟩ => exact absurd h (by omega)

/-- An entry of the reference's error array is the masked squared error of the two inputs' entries. -/
theorem loss_entry (x0 x1 : Arr) (i : S64x512x512.Idx) : val_main_v12 (F := Ideal) x0 x1 i = lossR (x0 i) (x1 i) := by
  show (x0 i - x1 i) * (x0 i - x1 i) * (val_main_v5 (F := Ideal) i - maskR (Ideal.cmp .olt (x1 i) (val_main_v0 (F := Ideal) i)))
      + maskR (Ideal.cmp .olt (x1 i) (val_main_v0 (F := Ideal) i))
        * ((max (x0 i) (val_main_call0_v0 (F := Ideal) i) - x1 i) * (max (x0 i) (val_main_call0_v0 (F := Ideal) i) - x1 i)) = _
  rw [val_main_v5_apply, val_main_v0_apply, val_main_call0_v0_apply]
  rfl

/-- The reference's total error: the initial zero plus the sum over samples, rows and columns of the masked squared error. -/
theorem loss_total (x0 x1 : Arr) (i : S_.Idx) :
    val_main_v13 (F := Ideal) x0 x1 i
      = w0 + ∑ b : Fin 64, ∑ y : Fin 512, ∑ w : Fin 512, lossR (x0 (ix3 b y w)) (x1 (ix3 b y w)) := by
  rw [val_main_v13_apply, sum_idx3]
  refine congrArg₂ (· + ·) rfl (Finset.sum_congr rfl fun b _ => Finset.sum_congr rfl fun y _ => Finset.sum_congr rfl fun w _ => ?_)
  exact loss_entry x0 x1 _

end Cert.ReferenceIdeal.Stats

end
-- ==== Proof.Bridge.lean ====
/-
  The kernel's statistics and the reference's are the same numbers, so the two programs' results are equal.

  * The truth's bin counts: columns 1–3 of the statistics array hold, per sample, zero plus the sum over the sample's
    rows and columns of the bin's indicator (the kernel's four row tiles regrouped); the reference's count table holds
    the same sum over the flattened sample. The two spellings of an indicator agree.
  * The prediction's bin counts: columns 4–6, likewise.
  * The total error: the kernel sums column 0 over the 64 samples, each entry zero plus the sample's double sum; the
    reference sums over samples, rows and columns at once. Zero is neutral and the sum over a rank-3 index set is the
    triple sum.
  Both results are the common tail of these three, hence equal.
-/
import proofs.«154915_j80479097193024_1_alg».proof.Proof.Tail
import proofs.«154915_j80479097193024_1_alg».proof.Proof.StatsCols
import proofs.«154915_j80479097193024_1_alg».proof.Proof.RefStats

noncomputable section

open Idealize.ShloMosaic Idealize.ShloMosaic.TcCoe Idealize.SL.Sem
open Idealize.ShloMosaic.ValueIdx
open scoped BigOperators

namespace Cert.KernelIdeal.Stats

open Cert.KernelIdeal Cert.KernelIdeal.Gen Cert.Stats

variable (m : (ℓ : Loc nD τ sig) → Buf (Elt Ideal) ℓ)

/-- The truth's counts agree. -/
theorem truth_agree (c : Dev nD) :
    truthCounts (F := Ideal) (statsArr m c)
      = Cert.ReferenceIdeal.Read.val_main_v40 (F := Ideal) (m ((c : Thread nD τ).loc main_arg1)) := by
  funext i
  obtain ⟨b, k, rfl⟩ : ∃ (b : Fin 64) (k : Fin 3), i = ix2 b k := ⟨i 0, i 1, eq_ix2 i⟩
  have hk := k.isLt
  unfold truthCounts
  refine (extractStridedSlice_apply ![0, 1] (statsArr m c) slices_S64x128_S64x3_0_1 (ix2 b k)
    (ix2 b (⟨k.val + 1, by omega⟩ : Fin 128)) (fun a => by
      match a with
      | ⟨0, _⟩ => show b.val = 0 + b.val; omega
      | ⟨1, _⟩ => show k.val + 1 = 1 + k.val; omega)).trans ?_
  refine (statsArr_col m c b ⟨k.val + 1, by omega⟩).trans ?_
  rw [Cert.ReferenceIdeal.Stats.truth_table]
  refine congrArg₂ (· + ·) rfl (Finset.sum_congr rfl fun y _ => Finset.sum_congr rfl fun w _ => ?_)
  rw [colFn_eq]
  match k with
  | ⟨0, _⟩ => rfl
  | ⟨1, _⟩ => rfl
  | ⟨2, _⟩ => rfl
  | ⟨n + 3, h⟩ => exact absurd h (by omega)

/-- The prediction's counts agree. -/
theorem pred_agree (c : Dev nD) :
    predCounts (F := Ideal) (statsArr m c)
      = Cert.ReferenceIdeal.Read.val_main_v79 (F := Ideal) (m ((c : Thread nD τ).loc main_arg0)) := by
  funext i
  obtain ⟨b, k, rfl⟩ : ∃ (b : Fin 64) (k : Fin 3), i = ix2 b k := ⟨i 0, i 1, eq_ix2 i⟩
  have hk := k.isLt
  unfold predCounts
  refine (extractStridedSlice_apply ![0, 4] (statsArr m c) slices_S64x128_S64x3_0_4 (ix2 b k)
    (ix2 b (⟨k.val + 4, by omega⟩ : Fin 128)) (fun a => by
      match a with
      | ⟨0, _⟩ => show b.val = 0 + b.val; omega
      | ⟨1, _⟩ => show k.val + 4 = 4 + k.val; omega)).trans ?_
  refine (statsArr_col m c b ⟨k.val + 4, by omega⟩).trans ?_
  rw [Cert.ReferenceIdeal.Stats.pred_table]
  refine congrArg₂ (· + ·) rfl (Finset.sum_congr rfl fun y _ => Finset.sum_congr rfl fun w _ => ?_)
  rw [colFn_eq]
  match k with
  | ⟨0, _⟩ => rfl
  | ⟨1, _⟩ => rfl
  | ⟨2, _⟩ => rfl
  | ⟨n + 3, h⟩ => exact absurd h (by omega)

/-- The slice of column 0 of a 64 × 128 array, at sample `b`. -/
theorem lossSlice_apply (S : S64x128.Idx → EReal) (b : Fin 64) :
    extractStridedSlice S64x1 ![0, 0] S slices_S64x128_S64x1_0_0 (ix2 b (0 : Fin 1)) = S (ix2 b (⟨0, by decide⟩ : Fin 128)) :=
  extractStridedSlice_apply ![0, 0] S slices_S64x128_S64x1_0_0 (ix2 b (0 : Fin 1))
    (ix2 b (⟨0, by decide⟩ : Fin 128)) (fun a => by
      match a with
      | ⟨0, _⟩ => show b.val = 0 + b.val; omega
      | ⟨1, _⟩ => show (0 : ℕ) = 0 + 0; rfl)

/-- Column 0 of a 64 × 128 array, through the slice and the reshape to a rank-1 vector, at sample `b`. -/
theorem lossCol_apply (S : S64x128.Idx → EReal) (b : Fin 64) :
    shapeCast S64 (extractStridedSlice S64x1 ![0, 0] S slices_S64x128_S64x1_0_0) shapeCasts_S64x1_S64 (ix1 b)
      = S (ix2 b (⟨0, by decide⟩ : Fin 128)) := by
  refine (shapeCast_apply _ shapeCasts_S64x1_S64 (ix1 b) (ix2 b (0 : Fin 1)) ?_).trans (lossSlice_apply S b)
  rw [Shape.rowMajor_val_one, Shape.rowMajor_val_two]; simp

/-- The total errors agree. -/
theorem loss_agree (c : Dev nD) :
    lossOf (F := Ideal) (statsArr m c)
      = Cert.ReferenceIdeal.Read.val_main_v13 (F := Ideal) (m ((c : Thread nD τ).loc main_arg0)) (m ((c : Thread nD τ).loc main_arg1)) := by
  funext i
  rw [Cert.ReferenceIdeal.Stats.loss_total]
  unfold lossOf
  simp only [Host.reduceAdd, Ideal.hostReduceAdd_def]
  rw [Ideal.hostReduceAdd_total reducesTo_S64_S_d0 (fun b => b.elim0), sum_idx1]
  refine congrArg₂ (· + ·) rfl (Finset.sum_congr rfl fun b _ => ?_)
  rw [lossCol_apply (statsArr m c) b]
  refine (statsArr_col m c b ⟨0, by decide⟩).trans ?_
  rw [show (z0 : EReal) = 0 from Ideal.ofBits_zero_f32, zero_add]
  refine Finset.sum_congr rfl fun y _ => Finset.sum_congr rfl fun w _ => ?_
  exact colFn_eq _ _ _

/-- So the kernel program's result is the reference's last stage of the same two arrays. -/
theorem bridge (c : Dev nD) :
    ofStats (F := Ideal) (statsArr m c)
      = Cert.ReferenceIdeal.Read.val_main_v106 (F := Ideal) (m ((c : Thread nD τ).loc main_arg0)) (m ((c : Thread nD τ).loc main_arg1)) := by
  unfold ofStats
  rw [loss_agree, truth_agree, pred_agree]
  rfl

end Cert.KernelIdeal.Stats

end
-- ==== Proof.lean ====
/-
  A fused loss: the mean masked squared error of a prediction against a truth (64 samples of 512 × 512), plus a
  Kullback–Leibler term between the softmaxed three-bin histograms of the truth and of the prediction, per sample.

  The kernel streams both arrays once through a grid of 8 sample groups × 4 row tiles. At each point it sums, per sample
  of the tile, the entries' masked squared error and six bin indicators over the tile, and accumulates the seven numbers
  into an 8 × 128 block that is reset at a group's first row tile and written back after its last; host operations then
  take the softmaxes, the logarithms and the means. The reference computes the same entries over the whole arrays at once.

  Over the extended reals the two agree: the tile sums regroup a sample's double sum over rows and columns (sums of
  extended reals may be regrouped freely), a product's grouping does not matter, a test against +∞ is always true, and the
  operations after the statistics are the same on both sides. No finiteness of the inputs is used.

  The three frames are the generated ones (the reference's from its generated run); the ideal pass rewrote nothing.
-/
import proofs.«154915_j80479097193024_1_alg».proof.Defs
import proofs.«154915_j80479097193024_1_alg».proof.Proof.Gen.Kernel
import proofs.«154915_j80479097193024_1_alg».proof.Proof.Gen.Kernel.Skeleton
import proofs.«154915_j80479097193024_1_alg».proof.Proof.Gen.Kernel.Launch
import proofs.«154915_j80479097193024_1_alg».proof.Proof.Gen.Kernel.Points
import proofs.«154915_j80479097193024_1_alg».proof.Proof.Gen.Kernel.Frame
import proofs.«154915_j80479097193024_1_alg».proof.Proof.Gen.KernelIdeal
import proofs.«154915_j80479097193024_1_alg».proof.Proof.Gen.KernelIdeal.Skeleton
import proofs.«154915_j80479097193024_1_alg».proof.Proof.Gen.KernelIdeal.Launch
import proofs.«154915_j80479097193024_1_alg».proof.Proof.Gen.KernelIdeal.Points
import proofs.«154915_j80479097193024_1_alg».proof.Proof.Gen.KernelIdeal.Frame
import proofs.«154915_j80479097193024_1_alg».proof.Proof.Gen.ReferenceIdeal
import proofs.«154915_j80479097193024_1_alg».proof.Proof.Gen.ReferenceIdeal.Run
import proofs.«154915_j80479097193024_1_alg».proof.Proof.Gen.ReferenceIdeal.Read
import proofs.«154915_j80479097193024_1_alg».proof.Proof.Gen.Pre_finite_inputs
import proofs.«154915_j80479097193024_1_alg».proof.Proof.KernelRun
import proofs.«154915_j80479097193024_1_alg».proof.Proof.Bridge
import Idealize.ShloMosaic.Adequacy
import Idealize.ShloMosaic.Init

noncomputable section

namespace Cert.Proof

open Idealize.ShloMosaic Idealize.SL.Sem

/-- The word-level kernel program runs and keeps its arguments. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and keeps its arguments: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- At the ideal instance the kernel program ends at the common tail of its statistics array, the reference at the
    common tail of its own statistics of arguments that agree: the same three numbers' tail. -/
theorem algebraic : Cert.algebraic_KernelIdeal_ReferenceIdeal := by
  intro m ρ m' ρ' _ hagree
  refine ⟨fun c => Cert.KernelIdeal.Stats.ofStats (F := Ideal) (Cert.KernelIdeal.Stats.statsArr m c),
    Cert.KernelIdeal.Stats.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v106_eq, (hagree c).1, (hagree c).2]
  exact (Cert.KernelIdeal.Stats.bridge m c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
